-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x3 : Shape := ⟨3, ![2, 4096, 3]⟩
abbrev S2x4096x1 : Shape := ⟨3, ![2, 4096, 1]⟩
abbrev S_ : Shape := ⟨0, ![]⟩

class Facts : Prop where
  bcast_S_S2x4096x3 : S_.BroadcastsInDim S2x4096x3 (![] : Fin 0 → Fin S2x4096x3.rank)
  reducesTo_S2x4096x3_S_d0_1_2 : S2x4096x3.ReducesTo [0, 1, 2] S_
  h_S_ : 0 < S_.numel
  bcast_S_S2x4096x1 : S_.BroadcastsInDim S2x4096x1 (![] : Fin 0 → Fin S2x4096x1.rank)
  reducesTo_S2x4096x1_S_d0_1_2 : S2x4096x1.ReducesTo [0, 1, 2] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S2x4096x3 .f32) (main_arg1 : FVec F S2x4096x3 .f32) (main_arg2 : FVec F S2x4096x1 .f32) (main_arg3 : FVec F S_ .f32) : IVec S_ 1 :=
  let main_v0 : FVec F S2x4096x3 .f32 := Host.absf main_arg0
  let main_cst : FVec F S_ .f32 := constant S_ .f32 0x7F800000#32
  let main_v1 : FVec F S2x4096x3 .f32 := broadcastInDim S2x4096x3 ![] bcast_S_S2x4096x3 main_cst
  let main_v2 : IVec S2x4096x3 1 := cmpf .olt main_v0 main_v1
  let main_c : IVec S_ 1 := constantI S_ 1 1#1
  let main_v3 : IVec S_ 1 := (fun x v => Host.reduce IntOp.andi x v reducesTo_S2x4096x3_S_d0_1_2 h_S_) main_v2 main_c
  let main_v4 : FVec F S2x4096x3 .f32 := Host.absf main_arg1
  let main_cst_0 : FVec F S_ .f32 := constant S_ .f32 0x7F800000#32
  let main_v5 : FVec F S2x4096x3 .f32 := broadcastInDim S2x4096x3 ![] bcast_S_S2x4096x3 main_cst_0
  let main_v6 : IVec S2x4096x3 1 := cmpf .olt main_v4 main_v5
  let main_c_1 : IVec S_ 1 := constantI S_ 1 1#1
  let main_v7 : IVec S_ 1 := (fun x v => Host.reduce IntOp.andi x v reducesTo_S2x4096x3_S_d0_1_2 h_S_) main_v6 main_c_1
  let main_v8 : IVec S_ 1 := andi main_v3 main_v7
  let main_v9 : FVec F S2x4096x1 .f32 := Host.absf main_arg2
  let main_cst_2 : FVec F S_ .f32 := constant S_ .f32 0x7F800000#32
  let main_v10 : FVec F S2x4096x1 .f32 := broadcastInDim S2x4096x1 ![] bcast_S_S2x4096x1 main_cst_2
  let main_v11 : IVec S2x4096x1 1 := cmpf .olt main_v9 main_v10
  let main_c_3 : IVec S_ 1 := constantI S_ 1 1#1
  let main_v12 : IVec S_ 1 := (fun x v => Host.reduce IntOp.andi x v reducesTo_S2x4096x1_S_d0_1_2 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S2x4096x3 : Shape := ⟨3, ![2, 4096, 3]⟩
abbrev S2x4096x1 : Shape := ⟨3, ![2, 4096, 1]⟩
abbrev S_ : Shape := ⟨0, ![]⟩
abbrev S1x512x3 : Shape := ⟨3, ![1, 512, 3]⟩
abbrev S512x3 : Shape := ⟨2, ![512, 3]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x4096x1, .f32⟩
  | .hbm, ⟨3, _⟩ => ⟨S_, .f32⟩
  | .hbm, ⟨4, _⟩ => ⟨S2x4096x3, .f32⟩
  | .hbm, ⟨5, _⟩ => ⟨S2x4096x3, .f32⟩
  | .hbm, ⟨6, _⟩ => ⟨S2x4096x3, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x512x3, .f32⟩
  | .local _ .vmem, ⟨5, _⟩ => ⟨S1x512x3, .f32⟩
  | .local _ .vmem, ⟨6, _⟩ => ⟨S512x3, .f32⟩
  | _, _ => ⟨S2x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v65 : BitVec 1 := Scalar.cmpi .eq arg2 c7_i32
  let v66 : BitVec 32 := Scalar.extui v65
  let c0_i32_20 : BitVec 32 := 0#32
  let v67 : BitVec 1 := Scalar.cmpi .ne v66 c0_i32_20
  v67

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S2x4096x1_S2x4096x3_0_1_2 : S2x4096x1.BroadcastsInDim S2x4096x3 (![0, 1, 2] : Fin 3 → Fin S2x4096x3.rank)
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  shapeCasts_S512x1_S1x512 : S512x1.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  concatenates_S512x1_S512x1_S512x1_S512x3_d1 : Shape.Concatenates [S512x1, S512x1, S512x1] S512x3 1
  shapeCasts_S512x3_S1x512x3 : S512x3.ShapeCasts S1x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S2x4096x3.size a
  hwx0_0 : ∀ i : grid0.Coords, EltTy.bits .f32 = 32 ∨ (Rect.block (s := S2x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S2x4096x3.size a
  hwx0_1 : ∀ i : grid0.Coords, EltTy.bits .f32 = 32 ∨ (Rect.block (s := S2x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3.size a ≤ S2x4096x3.size a
  hwx0_2 : ∀ i : grid0.Coords, EltTy.bits .f32 = 32 ∨ (Rect.block (s := S2x4096x3) S1x512x3.size (cc0_transform_2 i) (hinb0_2 i)).WholeWords (EltTy.packing .f32)

variable [Facts₀]

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4096x3 : Shape := ⟨3, ![2, 4096, 3]⟩
abbrev S2x4096x1 : Shape := ⟨3, ![2, 4096, 1]⟩
abbrev S_ : Shape := ⟨0, ![]⟩
abbrev S2x4096x1x3 : Shape := ⟨4, ![2, 4096, 1, 3]⟩
abbrev S2x1x4096x3 : Shape := ⟨4, ![2, 1, 4096, 3]⟩
abbrev S2x4096x4096x3 : Shape := ⟨4, ![2, 4096, 4096, 3]⟩
abbrev S2x4096x4096 : Shape := ⟨3, ![2, 4096, 4096]⟩
abbrev S2x4096x4096x1 : Shape := ⟨4, ![2, 4096, 4096, 1]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x3, .f32⟩
  | .hbm, ⟨1, _⟩ => ⟨S2x4096x3, .f32⟩
  | .hbm, ⟨2, _⟩ => ⟨S2x4096x1, .f32⟩
  | .hbm, ⟨3, _⟩ => ⟨S_, .f32⟩
  | .hbm, ⟨4, _⟩ => ⟨S2x4096x3, .f32⟩
  | .hbm, ⟨5, _⟩ => ⟨S2x4096x3, .f32⟩
  | .hbm, ⟨6, _⟩ => ⟨S2x4096x1x3, .f32⟩
  | .hbm, ⟨7, _⟩ => ⟨S2x1x4096x3, .f32⟩
  | .hbm, ⟨8, _⟩ => ⟨S2x4096x4096x3, .f32⟩
  | .hbm, ⟨9, _⟩ => ⟨S2x4096x4096x3, .f32⟩
  | .hbm, ⟨10, _⟩ => ⟨S2x4096x4096x3, .f32⟩
  | .hbm, ⟨11, _⟩ => ⟨S2x4096x4096x3, .f32⟩
  | .hbm, ⟨12, _⟩ => ⟨S_, .f32⟩
  | .hbm, ⟨13, _⟩ => ⟨S2x4096x4096, .f32⟩
  | .hbm, ⟨14, _⟩ => ⟨S_, .f32⟩
  | .hbm, ⟨15, _⟩ => ⟨S2x4096x4096, .f32⟩
  | .hbm, ⟨16, _⟩ => ⟨S2x4096x4096, .i1⟩
  | .hbm, ⟨17, _⟩ => ⟨S_, .f32⟩
  | .hbm, ⟨18, _⟩ => ⟨S_, .f32⟩
  | .hbm, ⟨19, _⟩ => ⟨S2x4096x4096, .f32⟩
  | .hbm, ⟨20, _⟩ => ⟨S2x4096x4096, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S_, .f32⟩
  | .hbm, ⟨25, _⟩ => ⟨S_, .f32⟩
  | .hbm, ⟨26, _⟩ => ⟨S2x4096x4096, .f32⟩
  | .hbm, ⟨27, _⟩ => ⟨S2x4096x4096, .f32⟩
  | .hbm, ⟨28, _⟩ => ⟨S_, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S_, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S_, .f32⟩
  | .hbm, ⟨38, _⟩ => ⟨S2x4096x4096, .f32⟩
  | .hbm, ⟨39, _⟩ => ⟨S2x4096x4096, .f32⟩
  | .hbm, ⟨40, _⟩ => ⟨S_, .f32⟩
  | .hbm, ⟨41, _⟩ => ⟨S2x4096x4096, .f32⟩
  | .hbm, ⟨42, _⟩ => ⟨S2x4096x4096, .f32⟩
  | .hbm, ⟨43, _⟩ => ⟨S2x4096x4096, .f32⟩
  | .hbm, ⟨44, _⟩ => ⟨S2x4096x4096x1, .f32⟩
  | .hbm, ⟨45, _⟩ => ⟨S2x4096x4096x3, .f32⟩
  | .hbm, ⟨46, _⟩ => ⟨S2x4096x4096x3, .f32⟩
  | .hbm, ⟨47, _⟩ => ⟨S_, .f32⟩
  | .hbm, ⟨48, _⟩ => ⟨S2x4096x3, .f32⟩
  | _, _ => ⟨S2x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S2x4096x1_S2x4096x3_0_1_2 : S2x4096x1.BroadcastsInDim S2x4096x3 (![0, 1, 2] : Fin 3 → Fin S2x4096x3.rank)
  bcast_S2x4096x3_S2x4096x1x3_0_1_3 : S2x4096x3.BroadcastsInDim S2x4096x1x3 (![0, 1, 3] : Fin 3 → Fin S2x4096x1x3.rank)
  bcast_S2x4096x3_S2x1x4096x3_0_2_3 : S2x4096x3.BroadcastsInDim S2x1x4096x3 (![0, 2, 3] : Fin 3 → Fin S2x1x4096x3.rank)
  bcast_S2x4096x1x3_S2x4096x4096x3_0_1_2_3 : S2x4096x1x3.BroadcastsInDim S2x4096x4096x3 (![0, 1, 2, 3] : Fin 4 → Fin S2x4096x4096x3.rank)
  bcast_S2x1x4096x3_S2x4096x4096x3_0_1_2_3 : S2x1x4096x3.BroadcastsInDim S2x4096x4096x3 (![0, 1, 2, 3] : Fin 4 → Fin S2x4096x4096x3.rank)
  reducesTo_S2x4096x4096x3_S2x4096x4096_d3 : S2x4096x4096x3.ReducesTo [3] S2x4096x4096
  h_S_ : 0 < S_.numel
  bcast_S_S2x4096x4096 : S_.BroadcastsInDim S2x4096x4096 (![] : Fin 0 → Fin S2x4096x4096.rank)
  bcast_S2x4096x4096_S2x4096x4096x1_0_1_2 : S2x4096x4096.BroadcastsInDim S2x4096x4096x1 (![0, 1, 2] : Fin 3 → Fin S2x4096x4096x1.rank)
  bcast_S2x4096x4096x1_S2x4096x4096x3_0_1_2_3 : S2x4096x4096x1.BroadcastsInDim S2x4096x4096x3 (![0, 1, 2, 3] : Fin 4 → Fin S2x4096x4096x3.rank)
  reducesTo_S2x4096x4096x3_S2x4096x3_d2 : S2x4096x4096x3.ReducesTo [2] S2x4096x3

variable [Facts₀]

class Facts : Prop extends Facts₀ where

variable [Facts]
-- ==== Proof.K.Entry.lean ====
/-
  The arrays as the kernel call finds them. Before the call the program divides the momenta by the broadcast
  masses on the host (two operations, writing two fresh arrays); the position array, which the call reads
  through two windows, is untouched. `V m c b` is what buffer `b` of core `c` holds when the call is entered.
-/
import proofs.«171273_j13151189860959_1_alg».proof.Proof.Gen.Kernel.Launch
import proofs.«171273_j13151189860959_1_alg».proof.Proof.Gen.Kernel.Skeleton
import proofs.«171273_j13151189860959_1_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core `c`'s buffer contents at the call's entry, as a valuation: the launch contents after the two host operations. -/
abbrev V0 (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.K.Runs.lean ====
/-
  What the three runs of the pair-force body share. The grid is (batch, row tile i, partner tile j) = 2 × 8 × 8,
  the partner tile innermost: point `t` has `j = t mod 8`. The body resets its accumulator at `j = 0`, adds the
  tile's partial forces at every `j`, and copies the accumulator to the output block at `j = 7` only; so there are
  three control cases: first partner tile (reset), middle tiles, last tile (copy out). Both input windows read the
  position array: window 0 its row tile `(b, i)`, window 1 its partner tile `(b, j)`.
-/
import proofs.«171273_j13151189860959_1_alg».proof.Proof.K.Entry
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window's staging buffer holds its block at every point, fetched there or not (between fetches the
    block index does not move and the body only reads the buffer). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the partner-tile window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- `j = 0`: the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- `j = 7`: the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a point that does not copy out, the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a point that copies out, the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x512x3 .f32 := (Memref.whole cc0_stg2_0 : Memref sig .tc .vmem S1x512x3 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x3 .f32 := Memref.whole cc0_scratch0
abbrev VS0_0 : View sig .tc .vmem S512x3 .f32 := scM0_0.view

/-- The core's scoped buffers other than the staging buffers are the accumulator, owned at some contents. -/
theorem scopedRest_eq_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.K.RunA.lean ====
/-
  The body at a point of the FIRST partner tile (`j = 0`): the accumulator is overwritten with zeros, then with
  zeros plus this tile's partial forces; the output buffer is not touched.
-/
import proofs.«171273_j13151189860959_1_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs holding the two position blocks `x0`, `x1`, the output's buffer at any contents `xi2`
    (handed back untouched) and the accumulator at anything, the body runs, leaving the accumulator with the pieces
    `LS0` written: the pieces are found by the run. -/
noncomputable def kernelRun0_A (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) :
    Σ' (L2 : List (View.Piece (Elt F) S1x512x3 .f32)), { LS0 : List (View.Piece (Elt F) S512x3 .f32) //
      ∀ (xi2 : Vec F S1x512x3 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__pair_force_kernel i arg3 harg3 arg4 harg4 arg5 harg5 arg6 harg6) K } := by
  refine ⟨[], ?_, fun xi2 E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.RunB.lean ====
/-
  The body at a point of a MIDDLE partner tile (`0 < j < 7`): the accumulator, at what the point before left, gets
  this tile's partial forces added; the output buffer is not touched.
-/
import proofs.«171273_j13151189860959_1_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As the first tile's run, the accumulator entering at the contents `xs0`. -/
noncomputable def kernelRun0_B (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) :
    Σ' (L2 : List (View.Piece (Elt F) S1x512x3 .f32)), { LS0 : List (View.Piece (Elt F) S512x3 .f32) //
      ∀ (xi2 : Vec F S1x512x3 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__pair_force_kernel i arg3 harg3 arg4 harg4 arg5 harg5 arg6 harg6) K } := by
  refine ⟨[], ?_, fun xi2 E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.RunC.lean ====
/-
  The body at a point of the LAST partner tile (`j = 7`): the accumulator gets this tile's partial forces added and
  is then copied, whole, into the output's buffer.
-/
import proofs.«171273_j13151189860959_1_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As the middle tiles' run; the output's buffer, entering at anything, leaves with the pieces `L2` written. -/
noncomputable def kernelRun0_C (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) :
    Σ' (L2 : List (View.Piece (Elt F) S1x512x3 .f32)), { LS0 : List (View.Piece (Elt F) S512x3 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__pair_force_kernel i arg3 harg3 arg4 harg4 arg5 harg5 arg6 harg6) K } := by
  refine ⟨?_, ?_, fun E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.K.Frame.lean ====
/-
  The pair-force call's proof data and its body obligation. What the accumulator and the output's buffer hold
  after each grid point is defined by recursion on the point: the case the point is in (first, middle or last
  partner tile), run on the point's two position blocks and on what the point before left in the accumulator.
  Between points the invariant holds the accumulator at exactly those contents.
-/
import proofs.«171273_j13151189860959_1_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (qs : Fin 3 → PosShare TreeShare)

/-- Case A: what the run leaves in the output's buffer, its pieces read back (none: a placeholder nothing consults, the window being idle and not written back there). -/
def out0_A_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) : Vec F S1x512x3 .f32 :=
  VO0_2.read (Elt F) (VO0_2.writes (Elt F) VO0_2.junk (kernelRun0_A c i arg3 harg3 arg4 harg4 arg5 harg5 arg6 harg6 hc0 hc1 x0 x1).1)

/-- Case A's pieces for the accumulator cover it. -/
theorem scover0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) (y : S512x3.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S512x3.size (by sl_kernel_rfl) y

/-- What case A leaves in the accumulator: its pieces read back. -/
def sout0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) : Vec F S512x3 .f32 :=
  VS0_0.read (Elt F) (VS0_0.writes (Elt F) VS0_0.junk (kernelRun0_A c i arg3 harg3 arg4 harg4 arg5 harg5 arg6 harg6 hc0 hc1 x0 x1).2.1)

/-- Case B: what the run leaves in the output's buffer, its pieces read back (none: a placeholder nothing consults, the window being idle and not written back there). -/
def out0_B_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) : Vec F S1x512x3 .f32 :=
  VO0_2.read (Elt F) (VO0_2.writes (Elt F) VO0_2.junk (kernelRun0_B c i arg3 harg3 arg4 harg4 arg5 harg5 arg6 harg6 hc0 hc1 x0 x1 xs0).1)

/-- Case B's pieces for the accumulator cover it. -/
theorem scover0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) (y : S512x3.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S512x3.size (by sl_kernel_rfl) y

/-- What case B leaves in the accumulator: its pieces read back. -/
def sout0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) : Vec F S512x3 .f32 :=
  VS0_0.read (Elt F) (VS0_0.writes (Elt F) VS0_0.junk (kernelRun0_B c i arg3 harg3 arg4 harg4 arg5 harg5 arg6 harg6 hc0 hc1 x0 x1 xs0).2.1)

/-- Case C: what the run leaves in the output's buffer, its pieces read back. -/
def out0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) : Vec F S1x512x3 .f32 :=
  VO0_2.read (Elt F) (VO0_2.writes (Elt F) VO0_2.junk (kernelRun0_C c i arg3 harg3 arg4 harg4 arg5 harg5 arg6 harg6 hc0 hc1 x0 x1 xs0).1)

/-- Case C's pieces for the accumulator cover it. -/
theorem scover0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) (y : S512x3.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S512x3.size (by sl_kernel_rfl) y

/-- What case C leaves in the accumulator: its pieces read back. -/
def sout0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) : Vec F S512x3 .f32 :=
  VS0_0.read (Elt F) (VS0_0.writes (Elt F) VS0_0.junk (kernelRun0_C c i arg3 harg3 arg4 harg4 arg5 harg5 arg6 harg6 hc0 hc1 x0 x1 xs0).2.1)

/-- The last tile's pieces for the output's buffer cover it. -/
theorem cover0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) (y : S1x512x3.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x512x3.size (by sl_kernel_rfl) y

/-! ## What the output's buffer and the accumulator hold after each point -/

/-- After the body at position `n`: (the output's buffer, the accumulator). -/
def outsAt0 (c : Dev nD) : (n : ℕ) → n < cfg0.N → Vec F S1x512x3 .f32 × Vec F S512x3 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the call finds them; after the body each input's buffer at its block, the output's at
    `outsAt0`; the invariant `PhiS`; the position array's share dealt to its two windows by `qs`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q := qs
  owed _ := 0

theorem A_eq (c : Dev nD) (w : Fin cfg0.W) : (dats m qs 0 c).A w = V m c (Pipeline.arrRef spec0 w) := by
  dsimp only [dats]

theorem q_eq (c : Dev nD) (w : Fin cfg0.W) : (dats m qs 0 c).q w = qs w := by
  dsimp only [dats]

theorem PhiS_castSucc (c : Dev nD) (t : Fin cfg0.N) :
    (dats m qs 0 c).Φ t.castSucc = PhiS m c t.val (Nat.le_of_lt t.isLt) := by
  dsimp only [dats]; simp only [Fin.coe_castSucc]

theorem after0_0 (c : Dev nD) (t : Fin cfg0.N) : (dats m qs 0 c).after 0 t = iblk m c 0 t := by dsimp only [dats]
theorem after0_1 (c : Dev nD) (t : Fin cfg0.N) : (dats m qs 0 c).after 1 t = iblk m c 1 t := by dsimp only [dats]
theorem after0_2 (c : Dev nD) (t : Fin cfg0.N) : (dats m qs 0 c).after 2 t = (outsAt0 m c t.val t.isLt).1 := by dsimp only [dats]

theorem before0_0 (c : Dev nD) (t : Fin cfg0.N) (d) : (dats m qs 0 c).before 0 t d = iblk m c 0 t :=
  before0_0_of m (dats m qs 0 c) (A_eq m qs c 0) (after0_0 m qs c) t d
theorem before0_1 (c : Dev nD) (t : Fin cfg0.N) (d) : (dats m qs 0 c).before 1 t d = iblk m c 1 t :=
  before0_1_of m (dats m qs 0 c) (A_eq m qs c 1) (after0_1 m qs c) t d

/-! ## The body obligation -/

def bodyPre (c : Dev nD) (t : Fin cfg0.N) : sProp 𝕄 :=
  iprop((dats m qs 0 c).Φ t.castSucc ∗ (dats m qs 0 c).owesAt () t.castSucc
    ∗ (∃ d, owns (c : Thread nD τ) (ms0_0 t) fullShare ((dats m qs 0 c).before 0 t d))
    ∗ (∃ d, owns (c : Thread nD τ) (ms0_1 t) fullShare ((dats m qs 0 c).before 1 t d))
    ∗ (∃ d, owns (c : Thread nD τ) (ms0_2 t) fullShare ((dats m qs 0 c).before 2 t d)))

def bodyPost (c : Dev nD) (t : Fin cfg0.N) : sProp 𝕄 :=
  iprop((dats m qs 0 c).Φ t.succ ∗ (dats m qs 0 c).owesAt () t.succ
    ∗ (dats m qs 0 c).leavesExact 0 t
    ∗ (dats m qs 0 c).leavesExact 1 t
    ∗ (dats m qs 0 c).leavesExact 2 t)

set_option maxHeartbeats 4800000 in
/-- The body at any point: the inputs' buffers hold their blocks; the closed forms say which case the point is in;
    the invariant hands the body the accumulator at what the point before left (at anything at the first point) and
    takes it back at this point's contents. -/
theorem sound_body (c : Dev nD) (t : Fin cfg0.N) :
    bodyPre m qs c t ⊢ wp frame (wpE (defs₀ (F := F)) Variants.none c none) Set.univ (bodyAt0 t) (fun _ => bodyPost m qs c t) := by
  unfold bodyPre bodyPost bodyAt0
  simp only [before0_0, before0_1]
  rw [show (dats m qs 0 c).owesAt () t.succ = (dats m qs 0 c).owesAt () t.castSucc from rfl]
  rw [show (dats m qs 0 c).Φ t.succ = PhiS m c (t.val + 1) t.isLt from rfl, PhiS_succ]
  have hN : t.val < 128 := lt_of_lt_of_eq t.isLt (show cfg0.N = 128 from N_0)
  rw [show (dats m qs 0 c).leavesExact 0 t = owns (c : Thread nD τ) (ms0_0 t) fullShare ((dats m qs 0 c).after 0 t) from by
    unfold Dat.leavesExact; rw [liveAt0_0 t], after0_0]
  rw [show (dats m qs 0 c).leavesExact 1 t = owns (c : Thread nD τ) (ms0_1 t) fullShare ((dats m qs 0 c).after 1 t) from by
    unfold Dat.leavesExact; rw [liveAt0_1 t], after0_1]
  by_cases h0 : t.val % 8 = 0
  · by_cases h1 : t.val % 8 = 7
    · exfalso; omega
    · rw [Dat.leavesExact_idle (dats m qs 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m qs c t, PhiS_zero m c _ _ hz, scopedRest_eq_acc]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
      · rw [PhiS_castSucc m qs c t, PhiS_pos m c _ _ hz]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dats m qs 0 c).leavesExact 2 t = owns (c : Thread nD τ) (ms0_2 t) fullShare ((dats m qs 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m qs c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m qs 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m qs c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m qs 0 c) (defs₀ (F := F)) Variants.none () Set.univ := fun t => by
  rw [bigSep_W0, bigSep_W0]
  exact sound_body m qs c t

/-- What the launch hands the call is the invariant before the first point. -/
theorem hin (c : Dev nD) :
    (Pipeline.scopedRest (Ix := Unit) (Name := ℕ) (U := UR sig nD τ) (Lvl := ℕ) (Val := Elt F) spec0 c : sProp 𝕄) ⊢ (dats m qs 0 c).Φ 0 := by
  rw [show (dats m qs 0 c).Φ 0 = PhiS m c 0 (Nat.zero_le _) from rfl, PhiS_zero m c 0 _ rfl]
  try exact Idealize.SL.BI.Entails.refl _

/-- After the last point the invariant gives the accumulator back, its contents forgotten. -/
theorem hout (c : Dev nD) :
    (dats m qs 0 c).Φ (Fin.last cfg0.N) ⊢ (Pipeline.scopedRest (Ix := Unit) (Name := ℕ) (U := UR sig nD τ) (Lvl := ℕ) (Val := Elt F) spec0 c : sProp 𝕄) := by
  rw [show (dats m qs 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq_acc]
  iintro HS0
  iexists _; iexact HS0

end Cert.Kernel.Hand

end
-- ==== Proof.K.Shared.lean ====
/-
  The launch of the program's one kernel region. The region has three windows; the first two are both inputs
  on the position array, the third is the output on a fresh array. A buffer read through two windows is held by
  them at complementary halves of the full share: the full share splits into its left and right halves, one per
  window. Everything else follows the ordinary run: the host operations before the region change only the two
  arrays they write, the region's invariant receives the one scratch buffer, and the buffers that bypass the
  region are read back unchanged at the end.
-/
import proofs.«171273_j13151189860959_1_alg».proof.Proof.K.Entry
import Idealize.ShloMosaic.Lib.Pipeline.Launch
import Idealize.ShloMosaic.Lib.Pipeline.Kit
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The share of the position array each window holds: the two input windows a half each. -/
abbrev qOf : Fin 3 → PosShare TreeShare
  | 0 => fullShare.left
  | 1 => fullShare.right
  | 2 => fullShare
  | ⟨_ + 3, h⟩ => absurd h (Nat.not_lt.2 (Nat.le_add_left _ _))

/-- Neither host operation before the region allocates. -/
theorem hostOps0_fresh : (hostOps0 : List (HloOp τ sig (Elt F))).Forall fun op => op.fresh = ∅ := by
  simp only [List.Forall]; repeat' constructor

/-- @main is the two host operations, then the region: the region is entered with the unscoped buffers at the
    contents the host operations leave. -/
theorem hmain (m : (ℓ : Loc nD τ sig) → Buf (Elt F) ℓ) (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

variable (m : (ℓ : Loc nD τ sig) → Buf (Elt F) ℓ)

/-- The distinct buffers behind the windows' arrays: the position array and the output array. -/
theorem arrRefs_eq : (Finset.univ.image (Pipeline.arrRef spec0) : Finset (Ref sig .tc)) = {main_arg0, main_v2} := by decide

/-- The buffers behind the windows' arrays, whole at the full share at the entry contents, make the proof
    data's arrays at entry: the position array's full share splits into its two halves, one for each input window
    (both windows see the same contents), and the output array goes to the output window whole. -/
theorem hsplit (dats : (p : Fin 1) → (c : Dev nD) → Pipeline.Dat τ (Elt F) Unit ℕ (UR sig nD τ) ℕ (cfgs p) c)
    (hq : ∀ c w, (dats 0 c).q w = qOf w)
    (hA : ∀ c w, (dats 0 c).A w = V m c (Pipeline.arrRef spec0 w)) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have s0 : (dats 0 c).share 0 = fullShare.left := by
    unfold Pipeline.Dat.share; rw [hq]; rfl
  have s1 : (dats 0 c).share 1 = fullShare.right := by
    unfold Pipeline.Dat.share; rw [hq]; rfl
  have s2 : (dats 0 c).share 2 = fullShare := by
    unfold Pipeline.Dat.share; rfl
  have a0 : (dats 0 c).arrAt 0 0 = V m c main_arg0 := hA c 0
  have a1 : (dats 0 c).arrAt 1 0 = V m c main_arg0 := hA c 1
  have a2 : (dats 0 c).arrAt 2 0 = V m c main_v2 := hA c 2
  unfold Pipeline.arrBufs Pipeline.Dat.arrays
  rw [arrRefs_eq, bigSep_W0, bigSep_insert (by decide : main_arg0 ∉ ({main_v2} : Finset (Ref sig .tc))), bigSep_singleton]
  simp only [(arr_whole0 0).set_eq_univ, (arr_whole0 1).set_eq_univ, (arr_whole0 2).set_eq_univ, s0, s1, s2]
  show iprop((((c : Thread nD τ).loc main_arg0) ↦{fullShare} V m c main_arg0) ∗ (((c : Thread nD τ).loc main_v2) ↦{fullShare} V m c main_v2))
    ⊢ iprop((((c : Thread nD τ).loc main_arg0) ↦{fullShare.left} (dats 0 c).arrAt 0 0)
    ∗ (((c : Thread nD τ).loc main_arg0) ↦{fullShare.right} (dats 0 c).arrAt 1 0)
    ∗ (((c : Thread nD τ).loc main_v2) ↦{fullShare} (dats 0 c).arrAt 2 0))
  rw [a0, a1, a2]
  iintro ⟨H0, H2⟩
  ihave H := (pointsTo_share (PosShare.mem_left_op_right fullShare)).1 $$ H0
  icases H with ⟨Hl, Hr⟩
  isplitl [Hl]; · iexact Hl
  isplitl [Hr]; · iexact Hr
  iexact H2

set_option backward.isDefEq.respectTransparency.types false in
/-- THE RUN. At the compiled mesh, for any values, from any memory with zero counters: every weakly fair execution of
    @main on the TensorCores terminates, and every final state has each window's array at what the proof data
    compute for it after the last point and every other unscoped buffer at its contents at the region's entry.
    The proof data name the shares of the position array (`hq`: a half for each input window), owe nothing
    (`howed`), take their entry arrays from the entry contents (`hA`), and their invariant is reached from the
    scratch buffer at any contents (`hin`) and gives it back (`hout`). -/
theorem run_shared (ρ : Dev nD → PrngReg)
    (dats : (p : Fin 1) → (c : Dev nD) → Pipeline.Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qOf w)
    (howed : ∀ c t, (dats 0 c).owed t = 0)
    (hA : ∀ c w, (dats 0 c).A w = V m c (Pipeline.arrRef spec0 w))
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run (defs (F := F)) (onTc (τ := τ) (main (F := F))) (s₀ m ρ) (Pipeline.FramePost cfgs dats 0 (V m)) := by
  classical
  exact Pipeline.θ_run_region_noSem_shared cfgs dats () cellOf_inj (0 : Fin 1) winFacts₀0 emb₁ defs₀ Variants.none m ρ main
    hbody block_pos0 arr_whole0 stage_whole0 howed
    (u₀ := Rounds.initOf (Pipeline.cells cfgs cellOf_inj) (Pipeline.launchToks cfgs cellOf_inj)) (hu₀ := .rfl)
    (V := V m) (hmain := hmain m Variants.none)
    (hsplit := hsplit m dats hq hA)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show _ ⊢ (Pipeline.scopedRest (Ix := Unit) (Name := ℕ) (U := UR sig nD τ) (Lvl := ℕ) (Val := Elt F) spec0 c : sProp 𝕄) from by
        iintro ⟨-, H⟩; iexact H).trans (hin c))
    (hout := fun c => (hout c).trans (by iintro H; isplitr; · iempintro
                                         iexact H))
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

end Cert.Kernel.Hand

end
-- ==== Proof.K.Main.lean ====
/-
  The pair-force program's run: under the launch for two windows on one array, every weakly fair execution of the
  program terminates with the output array at what the write-backs of the proof data leave and every other
  array as the call found it; in particular the four argument arrays end unchanged.
-/
import proofs.«171273_j13151189860959_1_alg».proof.Proof.K.Frame
import proofs.«171273_j13151189860959_1_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

set_option backward.isDefEq.respectTransparency.types false in
/-- The run. -/
theorem run_main : θ_run (defs (F := F)) (onTc (τ := τ) (main (F := F))) (s₀ m ρ) (Pipeline.FramePost cfgs (dats m qOf) 0 (V m)) :=
  run_shared m ρ (dats m qOf) (fun c => (body_obligation m qOf c).loose) (fun c w => q_eq m qOf c w)
    (fun _ _ => rfl) (A_eq m qOf) (hin m qOf) (hout m qOf)

/-- The argument arrays end as they were launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m qOf 0 c).arrAt_in 0 rfl _).trans ((A_eq m qOf c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KI.Entry.lean ====
/-
  The arrays as the kernel call finds them. Before the call the program divides the momenta by the broadcast
  masses on the host (two operations, writing two fresh arrays); the position array, which the call reads
  through two windows, is untouched. `V m c b` is what buffer `b` of core `c` holds when the call is entered.
-/
import proofs.«171273_j13151189860959_1_alg».proof.Proof.Gen.KernelIdeal.Launch
import proofs.«171273_j13151189860959_1_alg».proof.Proof.Gen.KernelIdeal.Skeleton
import proofs.«171273_j13151189860959_1_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core `c`'s buffer contents at the call's entry, as a valuation: the launch contents after the two host operations. -/
abbrev V0 (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.KI.Runs.lean ====
/-
  What the three runs of the pair-force body share. The grid is (batch, row tile i, partner tile j) = 2 × 8 × 8,
  the partner tile innermost: point `t` has `j = t mod 8`. The body resets its accumulator at `j = 0`, adds the
  tile's partial forces at every `j`, and copies the accumulator to the output block at `j = 7` only; so there are
  three control cases: first partner tile (reset), middle tiles, last tile (copy out). Both input windows read the
  position array: window 0 its row tile `(b, i)`, window 1 its partner tile `(b, j)`.
-/
import proofs.«171273_j13151189860959_1_alg».proof.Proof.KI.Entry
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-tile window's staging buffer holds its block at every point, fetched there or not (between fetches the
    block index does not move and the body only reads the buffer). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the partner-tile window. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- `j = 0`: the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- `j = 7`: the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- At a point that does not copy out, the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At a point that copies out, the output window is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S1x512x3 .f32 := (Memref.whole cc0_stg2_0 : Memref sig .tc .vmem S1x512x3 .f32).view
abbrev ms0_0 (t : Fin cfg0.N) : Memref sig .tc .vmem S1x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S512x3 .f32 := Memref.whole cc0_scratch0
abbrev VS0_0 : View sig .tc .vmem S512x3 .f32 := scM0_0.view

/-- The core's scoped buffers other than the staging buffers are the accumulator, owned at some contents. -/
theorem scopedRest_eq_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KI.RunA.lean ====
/-
  The body at a point of the FIRST partner tile (`j = 0`): the accumulator is overwritten with zeros, then with
  zeros plus this tile's partial forces; the output buffer is not touched.
-/
import proofs.«171273_j13151189860959_1_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole staging memrefs holding the two position blocks `x0`, `x1`, the output's buffer at any contents `xi2`
    (handed back untouched) and the accumulator at anything, the body runs, leaving the accumulator with the pieces
    `LS0` written: the pieces are found by the run. -/
noncomputable def kernelRun0_A (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) :
    Σ' (L2 : List (View.Piece (Elt F) S1x512x3 .f32)), { LS0 : List (View.Piece (Elt F) S512x3 .f32) //
      ∀ (xi2 : Vec F S1x512x3 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__pair_force_kernel i arg3 harg3 arg4 harg4 arg5 harg5 arg6 harg6) K } := by
  refine ⟨[], ?_, fun xi2 E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RunB.lean ====
/-
  The body at a point of a MIDDLE partner tile (`0 < j < 7`): the accumulator, at what the point before left, gets
  this tile's partial forces added; the output buffer is not touched.
-/
import proofs.«171273_j13151189860959_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As the first tile's run, the accumulator entering at the contents `xs0`. -/
noncomputable def kernelRun0_B (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) :
    Σ' (L2 : List (View.Piece (Elt F) S1x512x3 .f32)), { LS0 : List (View.Piece (Elt F) S512x3 .f32) //
      ∀ (xi2 : Vec F S1x512x3 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__pair_force_kernel i arg3 harg3 arg4 harg4 arg5 harg5 arg6 harg6) K } := by
  refine ⟨[], ?_, fun xi2 E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.RunC.lean ====
/-
  The body at a point of the LAST partner tile (`j = 7`): the accumulator gets this tile's partial forces added and
  is then copied, whole, into the output's buffer.
-/
import proofs.«171273_j13151189860959_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- As the middle tiles' run; the output's buffer, entering at anything, leaves with the pieces `L2` written. -/
noncomputable def kernelRun0_C (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) :
    Σ' (L2 : List (View.Piece (Elt F) S1x512x3 .f32)), { LS0 : List (View.Piece (Elt F) S512x3 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__pair_force_kernel i arg3 harg3 arg4 harg4 arg5 harg5 arg6 harg6) K } := by
  refine ⟨?_, ?_, fun E K => ?run⟩
  case run =>
    simp only [cc0__pair_force_kernel_eq_skeleton]; unfold cc0__pair_force_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KI.Frame.lean ====
/-
  The pair-force call's proof data and its body obligation. What the accumulator and the output's buffer hold
  after each grid point is defined by recursion on the point: the case the point is in (first, middle or last
  partner tile), run on the point's two position blocks and on what the point before left in the accumulator.
  Between points the invariant holds the accumulator at exactly those contents.
-/
import proofs.«171273_j13151189860959_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (qs : Fin 3 → PosShare TreeShare)

/-- Case A: what the run leaves in the output's buffer, its pieces read back (none: a placeholder nothing consults, the window being idle and not written back there). -/
def out0_A_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) : Vec F S1x512x3 .f32 :=
  VO0_2.read (Elt F) (VO0_2.writes (Elt F) VO0_2.junk (kernelRun0_A c i arg3 harg3 arg4 harg4 arg5 harg5 arg6 harg6 hc0 hc1 x0 x1).1)

/-- Case A's pieces for the accumulator cover it. -/
theorem scover0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) (y : S512x3.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S512x3.size (by sl_kernel_rfl) y

/-- What case A leaves in the accumulator: its pieces read back. -/
def sout0_A_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) : Vec F S512x3 .f32 :=
  VS0_0.read (Elt F) (VS0_0.writes (Elt F) VS0_0.junk (kernelRun0_A c i arg3 harg3 arg4 harg4 arg5 harg5 arg6 harg6 hc0 hc1 x0 x1).2.1)

/-- Case B: what the run leaves in the output's buffer, its pieces read back (none: a placeholder nothing consults, the window being idle and not written back there). -/
def out0_B_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) : Vec F S1x512x3 .f32 :=
  VO0_2.read (Elt F) (VO0_2.writes (Elt F) VO0_2.junk (kernelRun0_B c i arg3 harg3 arg4 harg4 arg5 harg5 arg6 harg6 hc0 hc1 x0 x1 xs0).1)

/-- Case B's pieces for the accumulator cover it. -/
theorem scover0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) (y : S512x3.Idx) :
    ∃ pc ∈ (kernelRun0_B c i arg3 harg3 arg4 harg4 arg5 harg5 arg6 harg6 hc0 hc1 x0 x1 xs0).2.1, y ∈ pc.1.set :=
  View.cover_of_tiledL (kernelRun0_B c i arg3 harg3 arg4 harg4 arg5 harg5 arg6 harg6 hc0 hc1 x0 x1 xs0).2.1 S512x3.size (by sl_kernel_rfl) y

/-- What case B leaves in the accumulator: its pieces read back. -/
def sout0_B_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) : Vec F S512x3 .f32 :=
  VS0_0.read (Elt F) (VS0_0.writes (Elt F) VS0_0.junk (kernelRun0_B c i arg3 harg3 arg4 harg4 arg5 harg5 arg6 harg6 hc0 hc1 x0 x1 xs0).2.1)

/-- Case C: what the run leaves in the output's buffer, its pieces read back. -/
def out0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) : Vec F S1x512x3 .f32 :=
  VO0_2.read (Elt F) (VO0_2.writes (Elt F) VO0_2.junk (kernelRun0_C c i arg3 harg3 arg4 harg4 arg5 harg5 arg6 harg6 hc0 hc1 x0 x1 xs0).1)

/-- Case C's pieces for the accumulator cover it. -/
theorem scover0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) (y : S512x3.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S512x3.size (by sl_kernel_rfl) y

/-- What case C leaves in the accumulator: its pieces read back. -/
def sout0_C_0 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) : Vec F S512x3 .f32 :=
  VS0_0.read (Elt F) (VS0_0.writes (Elt F) VS0_0.junk (kernelRun0_C c i arg3 harg3 arg4 harg4 arg5 harg5 arg6 harg6 hc0 hc1 x0 x1 xs0).2.1)

/-- The last tile's pieces for the output's buffer cover it. -/
theorem cover0_C_2 (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) (y : S1x512x3.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1x512x3.size (by sl_kernel_rfl) y

/-! ## What the output's buffer and the accumulator hold after each point -/

/-- After the body at position `n`: (the output's buffer, the accumulator). -/
def outsAt0 (c : Dev nD) : (n : ℕ) → n < cfg0.N → Vec F S1x512x3 .f32 × Vec F S512x3 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the accumulator at anything; afterwards at what the
    point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the call finds them; after the body each input's buffer at its block, the output's at
    `outsAt0`; the invariant `PhiS`; the position array's share dealt to its two windows by `qs`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q := qs
  owed _ := 0

theorem A_eq (c : Dev nD) (w : Fin cfg0.W) : (dats m qs 0 c).A w = V m c (Pipeline.arrRef spec0 w) := by
  dsimp only [dats]

theorem q_eq (c : Dev nD) (w : Fin cfg0.W) : (dats m qs 0 c).q w = qs w := by
  dsimp only [dats]

theorem PhiS_castSucc (c : Dev nD) (t : Fin cfg0.N) :
    (dats m qs 0 c).Φ t.castSucc = PhiS m c t.val (Nat.le_of_lt t.isLt) := by
  dsimp only [dats]; simp only [Fin.coe_castSucc]

theorem after0_0 (c : Dev nD) (t : Fin cfg0.N) : (dats m qs 0 c).after 0 t = iblk m c 0 t := by dsimp only [dats]
theorem after0_1 (c : Dev nD) (t : Fin cfg0.N) : (dats m qs 0 c).after 1 t = iblk m c 1 t := by dsimp only [dats]
theorem after0_2 (c : Dev nD) (t : Fin cfg0.N) : (dats m qs 0 c).after 2 t = (outsAt0 m c t.val t.isLt).1 := by dsimp only [dats]

theorem before0_0 (c : Dev nD) (t : Fin cfg0.N) (d) : (dats m qs 0 c).before 0 t d = iblk m c 0 t :=
  before0_0_of m (dats m qs 0 c) (A_eq m qs c 0) (after0_0 m qs c) t d
theorem before0_1 (c : Dev nD) (t : Fin cfg0.N) (d) : (dats m qs 0 c).before 1 t d = iblk m c 1 t :=
  before0_1_of m (dats m qs 0 c) (A_eq m qs c 1) (after0_1 m qs c) t d

/-! ## The body obligation -/

def bodyPre (c : Dev nD) (t : Fin cfg0.N) : sProp 𝕄 :=
  iprop((dats m qs 0 c).Φ t.castSucc ∗ (dats m qs 0 c).owesAt () t.castSucc
    ∗ (∃ d, owns (c : Thread nD τ) (ms0_0 t) fullShare ((dats m qs 0 c).before 0 t d))
    ∗ (∃ d, owns (c : Thread nD τ) (ms0_1 t) fullShare ((dats m qs 0 c).before 1 t d))
    ∗ (∃ d, owns (c : Thread nD τ) (ms0_2 t) fullShare ((dats m qs 0 c).before 2 t d)))

def bodyPost (c : Dev nD) (t : Fin cfg0.N) : sProp 𝕄 :=
  iprop((dats m qs 0 c).Φ t.succ ∗ (dats m qs 0 c).owesAt () t.succ
    ∗ (dats m qs 0 c).leavesExact 0 t
    ∗ (dats m qs 0 c).leavesExact 1 t
    ∗ (dats m qs 0 c).leavesExact 2 t)

set_option maxHeartbeats 4800000 in
/-- The body at any point: the inputs' buffers hold their blocks; the closed forms say which case the point is in;
    the invariant hands the body the accumulator at what the point before left (at anything at the first point) and
    takes it back at this point's contents. -/
theorem sound_body (c : Dev nD) (t : Fin cfg0.N) :
    bodyPre m qs c t ⊢ wp frame (wpE (defs₀ (F := F)) Variants.none c none) Set.univ (bodyAt0 t) (fun _ => bodyPost m qs c t) := by
  unfold bodyPre bodyPost bodyAt0
  simp only [before0_0, before0_1]
  rw [show (dats m qs 0 c).owesAt () t.succ = (dats m qs 0 c).owesAt () t.castSucc from rfl]
  rw [show (dats m qs 0 c).Φ t.succ = PhiS m c (t.val + 1) t.isLt from rfl, PhiS_succ]
  have hN : t.val < 128 := lt_of_lt_of_eq t.isLt (show cfg0.N = 128 from N_0)
  rw [show (dats m qs 0 c).leavesExact 0 t = owns (c : Thread nD τ) (ms0_0 t) fullShare ((dats m qs 0 c).after 0 t) from by
    unfold Dat.leavesExact; rw [liveAt0_0 t], after0_0]
  rw [show (dats m qs 0 c).leavesExact 1 t = owns (c : Thread nD τ) (ms0_1 t) fullShare ((dats m qs 0 c).after 1 t) from by
    unfold Dat.leavesExact; rw [liveAt0_1 t], after0_1]
  by_cases h0 : t.val % 8 = 0
  · by_cases h1 : t.val % 8 = 7
    · exfalso; omega
    · rw [Dat.leavesExact_idle (dats m qs 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m qs c t, PhiS_zero m c _ _ hz, scopedRest_eq_acc]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
      · rw [PhiS_castSucc m qs c t, PhiS_pos m c _ _ hz]
        iintro ⟨HS0, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _)
        isplitl [Ho]; · iexact Ho
        isplitl [H0]; · iexact H0
        isplitl [H1]; · iexact H1
        iexists _; iexact H2
  · have hz : t.val ≠ 0 := fun e => h0 (by rw [e])
    by_cases h1 : t.val % 8 = 7
    · rw [show (dats m qs 0 c).leavesExact 2 t = owns (c : Thread nD τ) (ms0_2 t) fullShare ((dats m qs 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m qs c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m qs 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m qs c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m qs 0 c) (defs₀ (F := F)) Variants.none () Set.univ := fun t => by
  rw [bigSep_W0, bigSep_W0]
  exact sound_body m qs c t

/-- What the launch hands the call is the invariant before the first point. -/
theorem hin (c : Dev nD) :
    (Pipeline.scopedRest (Ix := Unit) (Name := ℕ) (U := UR sig nD τ) (Lvl := ℕ) (Val := Elt F) spec0 c : sProp 𝕄) ⊢ (dats m qs 0 c).Φ 0 := by
  rw [show (dats m qs 0 c).Φ 0 = PhiS m c 0 (Nat.zero_le _) from rfl, PhiS_zero m c 0 _ rfl]
  try exact Idealize.SL.BI.Entails.refl _

/-- After the last point the invariant gives the accumulator back, its contents forgotten. -/
theorem hout (c : Dev nD) :
    (dats m qs 0 c).Φ (Fin.last cfg0.N) ⊢ (Pipeline.scopedRest (Ix := Unit) (Name := ℕ) (U := UR sig nD τ) (Lvl := ℕ) (Val := Elt F) spec0 c : sProp 𝕄) := by
  rw [show (dats m qs 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq_acc]
  iintro HS0
  iexists _; iexact HS0

end Cert.KernelIdeal.Hand

end
-- ==== Proof.KI.Pieces.lean ====
/-
  What each case's run leaves, named: the accumulator after a middle or last tile is the body's update of what it
  held; after a first tile the update of zeros; the output's buffer after a last tile is the accumulator, re-laid.
-/
import proofs.«171273_j13151189860959_1_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hzS : (![0, 0] : Fin S512x3.rank → Nat) = fun _ => 0 := funext fun a => by match a with | ⟨0, _⟩ => rfl | ⟨1, _⟩ => rfl
theorem hzO : (![0, 0, 0] : Fin S1x512x3.rank → Nat) = fun _ => 0 := funext fun a => by match a with | ⟨0, _⟩ => rfl | ⟨1, _⟩ => rfl | ⟨2, _⟩ => rfl

/-- A middle tile leaves the accumulator at its update by this tile's partial forces. -/
theorem sout0_B_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : ¬cond0_1 i)
    (x0 x1 : Vec F S1x512x3 .f32) (xs0 : Vec F S512x3 .f32) :
    sout0_B_0 c i arg3 harg3 arg4 harg4 arg5 harg5 arg6 harg6 hc0 hc1 x0 x1 xs0 = k0_pay1 (k0_pay6 x0 x1) (k0_pay7 x0 x1) (k0_pay8 x0 x1) (k0_pay9 x0 x1) (k0_pay10 x0 x1) (Scalar.ofBits .f32 0x41C00000#32) xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hzS]
  simp only [View.readAt_eq_ld, harg3.read_unread, harg4.read_unread, harg5.read_unread, harg6.read_unread, View.ld_unit_zero (S := S1x512x3) hzO, View.ld_unit_zero (S := S512x3) hzS, View.readCov_unit_zero (S := S512x3) _ hzS]

/-- So does the last tile. -/
theorem sout0_C_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) :
    sout0_C_0 c i arg3 harg3 arg4 harg4 arg5 harg5 arg6 harg6 hc0 hc1 x0 x1 xs0 = k0_pay1 (k0_pay6 x0 x1) (k0_pay7 x0 x1) (k0_pay8 x0 x1) (k0_pay9 x0 x1) (k0_pay10 x0 x1) (Scalar.ofBits .f32 0x41C00000#32) xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hzS]
  simp only [View.readAt_eq_ld, harg3.read_unread, harg4.read_unread, harg5.read_unread, harg6.read_unread, View.ld_unit_zero (S := S1x512x3) hzO, View.ld_unit_zero (S := S512x3) hzS, View.readCov_unit_zero (S := S512x3) _ hzS]

/-- The last tile leaves the output's buffer at the updated accumulator, re-laid as a block of one batch. -/
theorem out0_C_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : ¬cond0_0 i) (hc1 : cond0_1 i)
    (x0 x1 : Vec F S1x512x3 .f32) (xs0 : Vec F S512x3 .f32) :
    out0_C_2 c i arg3 harg3 arg4 harg4 arg5 harg5 arg6 harg6 hc0 hc1 x0 x1 xs0 = k0_pay2 (k0_pay1 (k0_pay6 x0 x1) (k0_pay7 x0 x1) (k0_pay8 x0 x1) (k0_pay9 x0 x1) (k0_pay10 x0 x1) (Scalar.ofBits .f32 0x41C00000#32) xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words

  rw [View.canon_unit_zero hzO]
  simp only [View.readAt_eq_ld, harg3.read_unread, harg4.read_unread, harg5.read_unread, harg6.read_unread, View.ld_unit_zero (S := S1x512x3) hzO, View.ld_unit_zero (S := S512x3) hzS, View.readCov_unit_zero (S := S512x3) _ hzS]

/-- A first tile leaves the accumulator at the update of zeros. -/
theorem sout0_A_eq (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x512x3 .f32) (harg5 : arg5.IsWhole) (arg6 : Memref sig .tc .vmem S512x3 .f32) (harg6 : arg6.IsWhole) (hc0 : cond0_0 i) (hc1 : ¬cond0_1 i)
    (x0 x1 : Vec F S1x512x3 .f32) :
    sout0_A_0 c i arg3 harg3 arg4 harg4 arg5 harg5 arg6 harg6 hc0 hc1 x0 x1 = k0_pay1 (k0_pay6 x0 x1) (k0_pay7 x0 x1) (k0_pay8 x0 x1) (k0_pay9 x0 x1) (k0_pay10 x0 x1) (Scalar.ofBits .f32 0x41C00000#32) (k0_pay3 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words

  rw [View.canon_cons_unit_zero (S := S512x3) hzS]
  simp only [View.readAt_eq_ld, harg3.read_unread, harg4.read_unread, harg5.read_unread, harg6.read_unread, View.ld_unit_zero (S := S1x512x3) hzO, View.ld_unit_zero (S := S512x3) hzS, View.readCov_unit_zero (S := S512x3) _ hzS]

end Cert.KernelIdeal.Hand

end
-- ==== Proof.KI.Shared.lean ====
/-
  The launch of the program's one kernel region. The region has three windows; the first two are both inputs
  on the position array, the third is the output on a fresh array. A buffer read through two windows is held by
  them at complementary halves of the full share: the full share splits into its left and right halves, one per
  window. Everything else follows the ordinary run: the host operations before the region change only the two
  arrays they write, the region's invariant receives the one scratch buffer, and the buffers that bypass the
  region are read back unchanged at the end.
-/
import proofs.«171273_j13151189860959_1_alg».proof.Proof.KI.Entry
import Idealize.ShloMosaic.Lib.Pipeline.Launch
import Idealize.ShloMosaic.Lib.Pipeline.Kit
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The share of the position array each window holds: the two input windows a half each. -/
abbrev qOf : Fin 3 → PosShare TreeShare
  | 0 => fullShare.left
  | 1 => fullShare.right
  | 2 => fullShare
  | ⟨_ + 3, h⟩ => absurd h (Nat.not_lt.2 (Nat.le_add_left _ _))

/-- Neither host operation before the region allocates. -/
theorem hostOps0_fresh : (hostOps0 : List (HloOp τ sig (Elt F))).Forall fun op => op.fresh = ∅ := by
  simp only [List.Forall]; repeat' constructor

/-- @main is the two host operations, then the region: the region is entered with the unscoped buffers at the
    contents the host operations leave. -/
theorem hmain (m : (ℓ : Loc nD τ sig) → Buf (Elt F) ℓ) (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

variable (m : (ℓ : Loc nD τ sig) → Buf (Elt F) ℓ)

/-- The distinct buffers behind the windows' arrays: the position array and the output array. -/
theorem arrRefs_eq : (Finset.univ.image (Pipeline.arrRef spec0) : Finset (Ref sig .tc)) = {main_arg0, main_v2} := by decide

/-- The buffers behind the windows' arrays, whole at the full share at the entry contents, make the proof
    data's arrays at entry: the position array's full share splits into its two halves, one for each input window
    (both windows see the same contents), and the output array goes to the output window whole. -/
theorem hsplit (dats : (p : Fin 1) → (c : Dev nD) → Pipeline.Dat τ (Elt F) Unit ℕ (UR sig nD τ) ℕ (cfgs p) c)
    (hq : ∀ c w, (dats 0 c).q w = qOf w)
    (hA : ∀ c w, (dats 0 c).A w = V m c (Pipeline.arrRef spec0 w)) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  have s0 : (dats 0 c).share 0 = fullShare.left := by
    unfold Pipeline.Dat.share; rw [hq]; rfl
  have s1 : (dats 0 c).share 1 = fullShare.right := by
    unfold Pipeline.Dat.share; rw [hq]; rfl
  have s2 : (dats 0 c).share 2 = fullShare := by
    unfold Pipeline.Dat.share; rfl
  have a0 : (dats 0 c).arrAt 0 0 = V m c main_arg0 := hA c 0
  have a1 : (dats 0 c).arrAt 1 0 = V m c main_arg0 := hA c 1
  have a2 : (dats 0 c).arrAt 2 0 = V m c main_v2 := hA c 2
  unfold Pipeline.arrBufs Pipeline.Dat.arrays
  rw [arrRefs_eq, bigSep_W0, bigSep_insert (by decide : main_arg0 ∉ ({main_v2} : Finset (Ref sig .tc))), bigSep_singleton]
  simp only [(arr_whole0 0).set_eq_univ, (arr_whole0 1).set_eq_univ, (arr_whole0 2).set_eq_univ, s0, s1, s2]
  show iprop((((c : Thread nD τ).loc main_arg0) ↦{fullShare} V m c main_arg0) ∗ (((c : Thread nD τ).loc main_v2) ↦{fullShare} V m c main_v2))
    ⊢ iprop((((c : Thread nD τ).loc main_arg0) ↦{fullShare.left} (dats 0 c).arrAt 0 0)
    ∗ (((c : Thread nD τ).loc main_arg0) ↦{fullShare.right} (dats 0 c).arrAt 1 0)
    ∗ (((c : Thread nD τ).loc main_v2) ↦{fullShare} (dats 0 c).arrAt 2 0))
  rw [a0, a1, a2]
  iintro ⟨H0, H2⟩
  ihave H := (pointsTo_share (PosShare.mem_left_op_right fullShare)).1 $$ H0
  icases H with ⟨Hl, Hr⟩
  isplitl [Hl]; · iexact Hl
  isplitl [Hr]; · iexact Hr
  iexact H2

set_option backward.isDefEq.respectTransparency.types false in
/-- THE RUN. At the compiled mesh, for any values, from any memory with zero counters: every weakly fair execution of
    @main on the TensorCores terminates, and every final state has each window's array at what the proof data
    compute for it after the last point and every other unscoped buffer at its contents at the region's entry.
    The proof data name the shares of the position array (`hq`: a half for each input window), owe nothing
    (`howed`), take their entry arrays from the entry contents (`hA`), and their invariant is reached from the
    scratch buffer at any contents (`hin`) and gives it back (`hout`). -/
theorem run_shared (ρ : Dev nD → PrngReg)
    (dats : (p : Fin 1) → (c : Dev nD) → Pipeline.Dat τ (Elt F) Unit ℕ (UR sig nD τ) ℕ (cfgs p) c)
    (hbody : ∀ c, Pipeline.BodyObligationLoose (dats 0 c) (defs₀ (F := F)) Variants.none () Set.univ)
    (hq : ∀ c w, (dats 0 c).q w = qOf w)
    (howed : ∀ c t, (dats 0 c).owed t = 0)
    (hA : ∀ c w, (dats 0 c).A w = V m c (Pipeline.arrRef spec0 w))
    (hin : ∀ c, (Pipeline.scopedRest (Ix := Unit) (Name := ℕ) (U := UR sig nD τ) (Lvl := ℕ) (Val := Elt F) spec0 c : sProp 𝕄) ⊢ (dats 0 c).Φ 0)
    (hout : ∀ c, (dats 0 c).Φ (Fin.last cfg0.N) ⊢ (Pipeline.scopedRest (Ix := Unit) (Name := ℕ) (U := UR sig nD τ) (Lvl := ℕ) (Val := Elt F) spec0 c : sProp 𝕄)) :
    θ_run (defs (F := F)) (onTc (τ := τ) (main (F := F))) (s₀ m ρ) (Pipeline.FramePost cfgs dats 0 (V m)) := by
  classical
  exact Pipeline.θ_run_region_noSem_shared cfgs dats () cellOf_inj (0 : Fin 1) winFacts₀0 emb₁ defs₀ Variants.none m ρ main
    hbody block_pos0 arr_whole0 stage_whole0 howed
    (u₀ := Rounds.initOf (Pipeline.cells cfgs cellOf_inj) (Pipeline.launchToks cfgs cellOf_inj)) (hu₀ := .rfl)
    (V := V m) (hmain := hmain m Variants.none)
    (hsplit := hsplit m dats hq hA)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => (show _ ⊢ (Pipeline.scopedRest (Ix := Unit) (Name := ℕ) (U := UR sig nD τ) (Lvl := ℕ) (Val := Elt F) spec0 c : sProp 𝕄) from by
        iintro ⟨-, H⟩; iexact H).trans (hin c))
    (hout := fun c => (hout c).trans (by iintro H; isplitr; · iempintro
                                         iexact H))
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

end Cert.KernelIdeal.Hand

end
-- ==== Proof.KI.Main.lean ====
/-
  The pair-force program's run: under the launch for two windows on one array, every weakly fair execution of the
  program terminates with the output array at what the write-backs of the proof data leave and every other
  array as the call found it; in particular the four argument arrays end unchanged.
-/
import proofs.«171273_j13151189860959_1_alg».proof.Proof.KI.Frame
import proofs.«171273_j13151189860959_1_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the call writes `main_arg0`: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the call writes `main_arg1`: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the call writes `main_arg2`: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))
/-- No host operation before the call writes `main_arg3`: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

set_option backward.isDefEq.respectTransparency.types false in
/-- The run. -/
theorem run_main : θ_run (defs (F := F)) (onTc (τ := τ) (main (F := F))) (s₀ m ρ) (Pipeline.FramePost cfgs (dats m qOf) 0 (V m)) :=
  run_shared m ρ (dats m qOf) (fun c => (body_obligation m qOf c).loose) (fun c w => q_eq m qOf c w)
    (fun _ _ => rfl) (A_eq m qOf) (hin m qOf) (hout m qOf)

/-- The argument arrays end as they were launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m qOf 0 c).arrAt_in 0 rfl _).trans ((A_eq m qOf c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.Spec.lean ====
/-
  The pair force, as one function of the position array, on the extended reals.

  For positions `q : [2, 4096, 3]` the force on particle `i` of batch `b` is
  `∑ j, coeff (q b i) (q b j) · (q b i − q b j)`, the sum over ALL partners `j` (the diagonal term vanishes by the
  mask: `r² > 0` fails there), where for a displacement `d = x − y` with `r² = d₀² + d₁² + d₂²`
  `inv = [r² > 0] · 1 / (if r² > 0 then r² else 1)`, `s₆ = (1·inv)³`, `coeff = 24 · inv · s₆ · (2 · s₆ − 1)`.
  Float literals stay as their words (the same word stands on both sides of every equation they meet).
-/
import Idealize.ShloMosaic.PureOps.Ideal
import Idealize.ShloMosaic.Lib.ValueIdx

noncomputable section

namespace Cert.PF

open Idealize.ShloMosaic Idealize.ShloMosaic.ValueIdx

/-- The positions' and the forces' shape. -/
abbrev SQ : Shape := ⟨3, ![2, 4096, 3]⟩

abbrev zero : EReal := Ideal.ofBits .f32 0x00000000#32
abbrev one : EReal := Ideal.ofBits .f32 0x3F800000#32
abbrev two : EReal := Ideal.ofBits .f32 0x40000000#32
abbrev c24 : EReal := Ideal.ofBits .f32 0x41C00000#32

/-- The squared distance of two positions, the three squares added left to right. -/
def r2 (x y : Fin 3 → EReal) : EReal :=
  (x 0 - y 0) * (x 0 - y 0) + (x 1 - y 1) * (x 1 - y 1) + (x 2 - y 2) * (x 2 - y 2)

/-- The masked inverse square distance: `1 / r²` where `r² > 0`, else `0`. -/
def inv (x y : Fin 3 → EReal) : EReal :=
  Scalar.select (Ideal.cmp .ogt (r2 x y) zero)
    (Ideal.div one (Scalar.select (Ideal.cmp .ogt (r2 x y) zero) (r2 x y) one)) zero

/-- `(σ² · inv)³` with `σ = 1`. -/
def s6 (x y : Fin 3 → EReal) : EReal := (one * inv x y) * (one * inv x y) * (one * inv x y)

/-- The scalar the displacement is scaled by. -/
def coeff (x y : Fin 3 → EReal) : EReal := c24 * inv x y * s6 x y * (two * s6 x y - one)

/-- One partner's contribution to component `k` of the force. -/
def term (x y : Fin 3 → EReal) (k : Fin 3) : EReal := coeff x y * (x k - y k)

/-- Row `(b, i)` of the position array. -/
def row (q : SQ.Idx → EReal) (b : Fin 2) (i : Fin 4096) : Fin 3 → EReal := fun k => q (ix3 b i k)

/-- The force array: component `k` on particle `i` of batch `b`, summed over every partner. -/
def force (q : SQ.Idx → EReal) : SQ.Idx → EReal := fun i =>
  ∑ j : Fin 4096, term (row q (i 0) (i 1)) (row q (i 0) j) (i 2)

theorem force_apply (q : SQ.Idx → EReal) (b : Fin 2) (i : Fin 4096) (k : Fin 3) :
    force q (ix3 b i k) = ∑ j : Fin 4096, term (row q b i) (row q b j) k := rfl

end Cert.PF

end
-- ==== Proof.PayloadAt.lean ====
/-
  The kernel body's arithmetic read at an index, at the ideal values (a float is an extended real).

  For two blocks of positions `x3, x5 : [1, 512, 3]` the body forms, for every row `r` of the first and every row `l`
  of the second, the displacement `x3 r − x5 l` component by component, its squared length, the masked inverse
  `inv`, the cube `s₆ = (1 · inv)³` and the scalar `24 · inv · s₆ · (2 · s₆ − 1)`; it scales the displacement by
  the scalar, sums over `l` and adds the three sums, side by side, to the accumulator. Read at `(r, k)` this is the
  accumulator there plus `∑ l, term (x3 r) (x5 l) k` (`pay1_apply`). The accumulator starts from the zero splat
  (`pay3_apply`) and is stored as a block with a leading unit axis (`pay2_apply`).

  The layout operations met on the way are read at coordinates by one small lemma each: a column cut out of a matrix
  and kept as a one-column matrix, a one-column matrix turned into a one-row matrix, each of them broadcast to a
  square matrix, a vector turned into a one-column matrix, three one-column matrices put side by side, and the sum
  of a matrix along each row. Float literals stay as their words.
-/
import proofs.«171273_j13151189860959_1_alg».proof.Proof.Gen.KernelIdeal.Skeleton
import proofs.«171273_j13151189860959_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayVal

open Idealize.ShloMosaic Idealize.ShloMosaic.ValueIdx Cert.KernelIdeal Cert.KernelIdeal.Gen

/-! ## Layout operations on a one-column matrix, read at coordinates -/

section Layout
variable {α : Type}

/-- Column `c` of a matrix, kept as a one-column matrix, reads at `(r, u)` the matrix at `(r, c)`. -/
theorem slice_col_apply {n m : ℕ} (c : ℕ) (X : (⟨2, ![n, m]⟩ : Shape).Idx → α)
    (h : (⟨2, ![n, m]⟩ : Shape).Slices ![0, c] ⟨2, ![n, 1]⟩) (r : Fin n) (u : Fin 1) (k : Fin m) (hk : k.val = c) :
    extractStridedSlice ⟨2, ![n, 1]⟩ ![0, c] X h (ix2 r u) = X (ix2 r k) :=
  slice2_axis1_apply c X h r u k (by have := u.isLt; omega)

/-- A one-column matrix `[a, 1]` cast to a one-row matrix `[1, a]` reads at `(u, i)` the column at `(i, u')`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) (u' : Fin 1) :
    shapeCast ⟨2, ![1, a]⟩ x h (ix2 u i) = x (ix2 i u') :=
  shapeCast_apply x h _ _ (by
    have hu : u.val = 0 := by have := u.isLt; omega
    have hu' : u'.val = 0 := by have := u'.isLt; omega
    rw [Shape.rowMajor_val_two, Shape.rowMajor_val_two]
    show i.val * 1 + u'.val = u.val * a + i.val
    rw [hu, hu', Nat.zero_mul, Nat.zero_add, Nat.mul_one, Nat.add_zero])

/-- A vector `[a]` cast to a one-column matrix `[a, 1]` reads at `(i, u)` the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by have := u.isLt; omega
    rw [Shape.rowMajor_val_two, Shape.rowMajor_val_one]
    show i.val = i.val * 1 + u.val
    rw [hu, Nat.mul_one, Nat.add_zero])

/-- A one-column matrix `[a, 1]` broadcast along the columns to `[a, b]` reads at `(p, c)` the column at `(p, u)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]
    have := u.isLt; omega

end Layout

/-! ## The three force columns side by side, and a row's sum -/

section Concat
variable {α : Type}

/-- Three one-column matrices side by side read, at column `0`, the first … -/
theorem concat3_col0_apply {n : ℕ} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) :
    concatenate ⟨2, ![n, 3]⟩ 1 [⟨⟨2, ![n, 1]⟩, x0⟩, ⟨⟨2, ![n, 1]⟩, x1⟩, ⟨⟨2, ![n, 1]⟩, x2⟩] h (ix2 r (0 : Fin 3))
      = x0 (ix2 r (0 : Fin 1)) :=
  concatenate_apply_piece (t := ⟨2, ![n, 3]⟩) 1 [⟨⟨2, ![n, 1]⟩, x0⟩, ⟨⟨2, ![n, 1]⟩, x1⟩, ⟨⟨2, ![n, 1]⟩, x2⟩] h
    (ix2 r (0 : Fin 3)) 0 (show 0 < 3 by omega) ⟨2, ![n, 1]⟩ x0 rfl rfl 0 rfl (ix2 r (0 : Fin 1))
    (fun b hb => by
      match b with
      | ⟨0, _⟩ => rfl
      | ⟨1, _⟩ => exact absurd rfl hb)
    rfl

/-- … at column `1`, the second … -/
theorem concat3_col1_apply {n : ℕ} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) :
    concatenate ⟨2, ![n, 3]⟩ 1 [⟨⟨2, ![n, 1]⟩, x0⟩, ⟨⟨2, ![n, 1]⟩, x1⟩, ⟨⟨2, ![n, 1]⟩, x2⟩] h (ix2 r (1 : Fin 3))
      = x1 (ix2 r (0 : Fin 1)) :=
  concatenate_apply_piece (t := ⟨2, ![n, 3]⟩) 1 [⟨⟨2, ![n, 1]⟩, x0⟩, ⟨⟨2, ![n, 1]⟩, x1⟩, ⟨⟨2, ![n, 1]⟩, x2⟩] h
    (ix2 r (1 : Fin 3)) 1 (show 1 < 3 by omega) ⟨2, ![n, 1]⟩ x1 rfl rfl 1 rfl (ix2 r (0 : Fin 1))
    (fun b hb => by
      match b with
      | ⟨0, _⟩ => rfl
      | ⟨1, _⟩ => exact absurd rfl hb)
    rfl

/-- … and at column `2`, the third. -/
theorem concat3_col2_apply {n : ℕ} (x0 x1 x2 : (⟨2, ![n, 1]⟩ : Shape).Idx → α)
    (h : Shape.Concatenates [(⟨2, ![n, 1]⟩ : Shape), ⟨2, ![n, 1]⟩, ⟨2, ![n, 1]⟩] ⟨2, ![n, 3]⟩ 1) (r : Fin n) :
    concatenate ⟨2, ![n, 3]⟩ 1 [⟨⟨2, ![n, 1]⟩, x0⟩, ⟨⟨2, ![n, 1]⟩, x1⟩, ⟨⟨2, ![n, 1]⟩, x2⟩] h (ix2 r (2 : Fin 3))
      = x2 (ix2 r (0 : Fin 1)) :=
  concatenate_apply_piece (t := ⟨2, ![n, 3]⟩) 1 [⟨⟨2, ![n, 1]⟩, x0⟩, ⟨⟨2, ![n, 1]⟩, x1⟩, ⟨⟨2, ![n, 1]⟩, x2⟩] h
    (ix2 r (2 : Fin 3)) 2 (show 2 < 3 by omega) ⟨2, ![n, 1]⟩ x2 rfl rfl 2 rfl (ix2 r (0 : Fin 1))
    (fun b hb => by
      match b with
      | ⟨0, _⟩ => rfl
      | ⟨1, _⟩ => exact absurd rfl hb)
    rfl

end Concat

/-- The sum of a matrix along each row, at the ideal values: at row `r` the sum over the columns `l` of the entry
    `(r, l)`, with no initial term. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec FTy.f32.bits) = FKind.add.neutral .f32 hφ) (r : Fin n) :
    multiReduction (F := Ideal) .add [1] ⟨1, ![n]⟩ src 0x00000000#32 h hφ hacc (ix1 r) = ∑ l : Fin m, src (ix2 r l) := by
  refine (Ideal.multiReduction_add_single src 0x00000000#32 h hφ hacc (ix1 r)).trans ?_
  refine Finset.sum_congr rfl fun l _ => congrArg src ?_
  funext c
  match c with
  | ⟨0, _⟩ => exact Fin.ext rfl
  | ⟨1, _⟩ => exact Fin.ext rfl

variable [Cert.KernelIdeal.Facts]

/-! ## The displacements -/

/-- A block of positions `[1, 512, 3]` viewed as `[512, 3]`. -/
theorem pay4_apply (x : Vec Ideal S1x512x3 .f32) (r : Fin 512) (k : Fin 3) : k0_pay4 x (ix2 r k) = x (ix3 0 r k) :=
  shapeCast_1ab_ab_apply x _ r k

theorem pay5_apply (x : Vec Ideal S1x512x3 .f32) (r : Fin 512) (k : Fin 3) : k0_pay5 x (ix2 r k) = x (ix3 0 r k) :=
  shapeCast_1ab_ab_apply x _ r k

/-- Column `c` of `A` down the rows less column `c` of `B` along the columns: at `(r, l)` it is
    `A (r, c) - B (l, c)`. -/
theorem colDiff_apply (c : ℕ) (hc : c < 3) (A B : FVec Ideal S512x3 .f32) (hs : S512x3.Slices ![0, c] S512x1)
    (hsc : S512x1.ShapeCasts S1x512) (hb1 : S512x1.Broadcasts S512x512) (hb2 : S1x512.Broadcasts S512x512)
    (r l : Fin 512) :
    subf (broadcastTo S512x512 (extractStridedSlice S512x1 ![0, c] A hs) hb1)
        (broadcastTo S512x512 (shapeCast S1x512 (extractStridedSlice S512x1 ![0, c] B hs) hsc) hb2) (ix2 r l)
      = A (ix2 r ⟨c, hc⟩) - B (ix2 l ⟨c, hc⟩) := by
  rw [subf_apply, broadcastTo_a1_ab_apply _ hb1 r l 0, broadcastTo_1b_ab_apply _ hb2 r l,
    shapeCast_a1_1a_apply _ hsc 0 l 0, slice_col_apply c A hs r 0 ⟨c, hc⟩ rfl, slice_col_apply c B hs l 0 ⟨c, hc⟩ rfl]

theorem pay6_apply (x3 x5 : Vec Ideal S1x512x3 .f32) (r l : Fin 512) :
    k0_pay6 x3 x5 (ix2 r l) = x3 (ix3 0 r 0) - x5 (ix3 0 l 0) :=
  (colDiff_apply 0 (by omega) (k0_pay4 x3) (k0_pay5 x5) _ _ _ _ r l).trans (by rw [pay4_apply, pay5_apply]; rfl)

theorem pay7_apply (x3 x5 : Vec Ideal S1x512x3 .f32) (r l : Fin 512) :
    k0_pay7 x3 x5 (ix2 r l) = x3 (ix3 0 r 1) - x5 (ix3 0 l 1) :=
  (colDiff_apply 1 (by omega) (k0_pay4 x3) (k0_pay5 x5) _ _ _ _ r l).trans (by rw [pay4_apply, pay5_apply]; rfl)

theorem pay8_apply (x3 x5 : Vec Ideal S1x512x3 .f32) (r l : Fin 512) :
    k0_pay8 x3 x5 (ix2 r l) = x3 (ix3 0 r 2) - x5 (ix3 0 l 2) :=
  (colDiff_apply 2 (by omega) (k0_pay4 x3) (k0_pay5 x5) _ _ _ _ r l).trans (by rw [pay4_apply, pay5_apply]; rfl)

/-! ## The masked inverse square distance, its cube, and the force -/

theorem pay9_apply (x3 x5 : Vec Ideal S1x512x3 .f32) (r l : Fin 512) :
    k0_pay9 x3 x5 (ix2 r l) = Cert.PF.inv (fun k' => x3 (ix3 0 r k')) (fun k' => x5 (ix3 0 l k')) := by
  unfold k0_pay9
  simp only [select_apply, cmpf_apply, divf_apply, broadcast_apply, addf_apply, mulf_apply, pay6_apply, pay7_apply,
    pay8_apply, Ideal.cmpf_def]
  rfl

theorem pay10_apply (x3 x5 : Vec Ideal S1x512x3 .f32) (r l : Fin 512) :
    k0_pay10 x3 x5 (ix2 r l) = Cert.PF.s6 (fun k' => x3 (ix3 0 r k')) (fun k' => x5 (ix3 0 l k')) := by
  unfold k0_pay10
  simp only [broadcast_apply, mulf_apply, pay9_apply]
  rfl

/-- The accumulated force's column `0`: the accumulator plus, over the partners `l`, the scalar
    `c · inv · s₆ · (2 · s₆ − 1)` times the displacement's component `0` … -/
theorem pay1_col0 (v18 v21 v24 v37 v41 : FVec Ideal S512x512 .f32) (cst : Ideal .f32) (acc : Vec Ideal S512x3 .f32)
    (r : Fin 512) :
    k0_pay1 v18 v21 v24 v37 v41 cst acc (ix2 r (0 : Fin 3))
      = acc (ix2 r (0 : Fin 3)) + ∑ l : Fin 512, cst * v37 (ix2 r l) * v41 (ix2 r l)
          * (Cert.PF.two * v41 (ix2 r l) - Cert.PF.one) * v18 (ix2 r l) := by
  unfold k0_pay1
  rw [shapeCast_self, addf_apply, concat3_col0_apply, shapeCast_a_a1_apply]
  exact congrArg (acc (ix2 r (0 : Fin 3)) + ·) (rowSum_apply _ _ _ _ r)

/-- … its column `1` … -/
theorem pay1_col1 (v18 v21 v24 v37 v41 : FVec Ideal S512x512 .f32) (cst : Ideal .f32) (acc : Vec Ideal S512x3 .f32)
    (r : Fin 512) :
    k0_pay1 v18 v21 v24 v37 v41 cst acc (ix2 r (1 : Fin 3))
      = acc (ix2 r (1 : Fin 3)) + ∑ l : Fin 512, cst * v37 (ix2 r l) * v41 (ix2 r l)
          * (Cert.PF.two * v41 (ix2 r l) - Cert.PF.one) * v21 (ix2 r l) := by
  unfold k0_pay1
  rw [shapeCast_self, addf_apply, concat3_col1_apply, shapeCast_a_a1_apply]
  exact congrArg (acc (ix2 r (1 : Fin 3)) + ·) (rowSum_apply _ _ _ _ r)

/-- … and its column `2`. -/
theorem pay1_col2 (v18 v21 v24 v37 v41 : FVec Ideal S512x512 .f32) (cst : Ideal .f32) (acc : Vec Ideal S512x3 .f32)
    (r : Fin 512) :
    k0_pay1 v18 v21 v24 v37 v41 cst acc (ix2 r (2 : Fin 3))
      = acc (ix2 r (2 : Fin 3)) + ∑ l : Fin 512, cst * v37 (ix2 r l) * v41 (ix2 r l)
          * (Cert.PF.two * v41 (ix2 r l) - Cert.PF.one) * v24 (ix2 r l) := by
  unfold k0_pay1
  rw [shapeCast_self, addf_apply, concat3_col2_apply, shapeCast_a_a1_apply]
  exact congrArg (acc (ix2 r (2 : Fin 3)) + ·) (rowSum_apply _ _ _ _ r)

theorem pay1_apply (x3 x5 : Vec Ideal S1x512x3 .f32) (acc : Vec Ideal S512x3 .f32) (r : Fin 512) (k : Fin 3) :
    k0_pay1 (k0_pay6 x3 x5) (k0_pay7 x3 x5) (k0_pay8 x3 x5) (k0_pay9 x3 x5) (k0_pay10 x3 x5)
        (Scalar.ofBits .f32 0x41C00000#32) acc (ix2 r k)
      = acc (ix2 r k) + ∑ l : Fin 512, Cert.PF.term (fun k' => x3 (ix3 0 r k')) (fun k' => x5 (ix3 0 l k')) k := by
  match k with
  | ⟨0, _⟩ =>
    refine (pay1_col0 _ _ _ _ _ _ acc r).trans (congrArg (acc (ix2 r (0 : Fin 3)) + ·) (Finset.sum_congr rfl fun l _ => ?_))
    rw [pay6_apply, pay9_apply, pay10_apply]
    rfl
  | ⟨1, _⟩ =>
    refine (pay1_col1 _ _ _ _ _ _ acc r).trans (congrArg (acc (ix2 r (1 : Fin 3)) + ·) (Finset.sum_congr rfl fun l _ => ?_))
    rw [pay7_apply, pay9_apply, pay10_apply]
    rfl
  | ⟨2, _⟩ =>
    refine (pay1_col2 _ _ _ _ _ _ acc r).trans (congrArg (acc (ix2 r (2 : Fin 3)) + ·) (Finset.sum_congr rfl fun l _ => ?_))
    rw [pay8_apply, pay9_apply, pay10_apply]
    rfl

/-- The zero splat the accumulator starts from. -/
theorem pay3_apply (j : S512x3.Idx) : k0_pay3 (F := Ideal) j = 0 := by
  unfold k0_pay3
  rw [shapeCast_self]
  exact Ideal.ofBits_zero_f32

/-- The accumulator `[512, 3]` stored as a block `[1, 512, 3]`. -/
theorem pay2_apply (v : Vec Ideal S512x3 .f32) (r : Fin 512) (k : Fin 3) : k0_pay2 v (ix3 0 r k) = v (ix2 r k) :=
  shapeCast_ab_1ab_apply v _ 0 r k

end Cert.KernelIdeal.PayVal

end
-- ==== Proof.Val.Blocks.lean ====
/-
  From blocks to arrays, at the ideal instance. The grid is (batch b, row tile i, partner tile j) = 2 × 8 × 8 with
  the partner tile innermost: point t has b = t / 64, i = (t / 8) mod 8, j = t mod 8. Every block is [1, 512, 3] of a
  [2, 4096, 3] array, so a block's entry (0, r, k) is the array's entry (block index × size + coordinate inside the block)
  on each axis: row tile i holds rows 512 i … 512 i + 511 of batch b, partner tile j rows 512 j … 512 j + 511.
  The output's block (b, i) is written back at the points with j = 7 only; those sixteen blocks tile the output, the
  block of row a of batch b being that of the point 64 b + 8 (a / 512) + 7. So if what the output's buffer holds after
  each such point is that point's block of one function G of the whole array, the array ends holding G.
-/
import proofs.«171273_j13151189860959_1_alg».proof.Proof.KI.Frame
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.Hand

variable (m : (ℓ : Loc nD τ sig) → Buf (Elt Ideal) ℓ) (qs : Fin 3 → PosShare TreeShare)

/-! ## The grid point's coordinates, and the rows its tiles hold -/

theorem lt128 (t : Fin cfg0.N) : t.val < 128 := lt_of_lt_of_eq t.isLt (show cfg0.N = 128 from N_0)

/-- The batch of point t: t / 64. -/
def batchAt (t : Fin cfg0.N) : Fin 2 := ⟨t.val / 64, by have := lt128 t; omega⟩
/-- Row r of point t's row tile, as a row of the array: 512 ((t / 8) mod 8) + r. -/
def rowAt (t : Fin cfg0.N) (r : Fin 512) : Fin 4096 := ⟨512 * ((t.val / 8) % 8) + r.val, by have := r.isLt; omega⟩
/-- Row l of point t's partner tile, as a row of the array: 512 (t mod 8) + l. -/
def partnerAt (t : Fin cfg0.N) (l : Fin 512) : Fin 4096 := ⟨512 * (t.val % 8) + l.val, by have := l.isLt; omega⟩

/-- The three windows' block indices at point t, decided over the grid: (b, i, 0), (b, j, 0), (b, i, 0). -/
theorem idx_facts : ∀ t : Fin cfg0.N,
    win0_0.index t (0 : Fin 3) = t.val / 64 ∧ win0_0.index t (1 : Fin 3) = (t.val / 8) % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = (t.val / 8) % 8 ∧ win0_2.index t (2 : Fin 3) = 0 :=
  (by decide +kernel : ∀ t : Fin grid0.N, _)

/-! ## The input blocks read off the position array -/

/-- The row tile's entry (0, r, k) is the array's entry (b, 512 i + r, k). -/
theorem iblk0_apply (c : Dev nD) (t : Fin cfg0.N) (r : Fin 512) (k : Fin 3) :
    iblk m c 0 t (ix3 0 r k) = V m c main_arg0 (ix3 (batchAt t) (rowAt t r) k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val / 64; omega
  | ⟨1, _⟩ => show win0_0.index t (1 : Fin 3) * 512 + 1 * r.val = 512 * ((t.val / 8) % 8) + r.val; omega
  | ⟨2, _⟩ => show win0_0.index t (2 : Fin 3) * 3 + 1 * k.val = k.val; omega

/-- The partner tile's entry (0, l, k) is the array's entry (b, 512 j + l, k). -/
theorem iblk1_apply (c : Dev nD) (t : Fin cfg0.N) (l : Fin 512) (k : Fin 3) :
    iblk m c 1 t (ix3 0 l k) = V m c main_arg0 (ix3 (batchAt t) (partnerAt t l) k) := by
  obtain ⟨-, -, -, e0, e1, e2, -⟩ := idx_facts t
  unfold iblk
  rw [View.read_apply]
  show V m c main_arg0 _ = V m c main_arg0 _
  congr 1
  funext a
  apply Fin.ext
  match a with
  | ⟨0, _⟩ => show win0_1.index t (0 : Fin 3) * 1 + 1 * 0 = t.val / 64; omega
  | ⟨1, _⟩ => show win0_1.index t (1 : Fin 3) * 512 + 1 * l.val = 512 * (t.val % 8) + l.val; omega
  | ⟨2, _⟩ => show win0_1.index t (2 : Fin 3) * 3 + 1 * k.val = k.val; omega

/-! ## The output array after the run -/

/-- Where the output's block at point t sits in its array: entry (0, r, k) at (b, 512 i + r, k). -/
theorem out_emb (t : Fin cfg0.N) (r : Fin 512) (k : Fin 3) :
    ((cfg0.win 2).blk t).view.emb (ix3 0 r k) = ix3 (batchAt t) (rowAt t r) k := by
  obtain ⟨-, -, -, -, -, -, e0, e1, e2⟩ := idx_facts t
  funext a
  apply Fin.ext
  match a with
  | ⟨0, _⟩ => show win0_2.index t (0 : Fin 3) * 1 + 1 * 0 = t.val / 64; omega
  | ⟨1, _⟩ => show win0_2.index t (1 : Fin 3) * 512 + 1 * r.val = 512 * ((t.val / 8) % 8) + r.val; omega
  | ⟨2, _⟩ => show win0_2.index t (2 : Fin 3) * 3 + 1 * k.val = k.val; omega

/-- What a point that copies out leaves in the output's buffer, entry by entry, is its block of G. -/
theorem out_blk_apply (c : Dev nD) (G : S2x4096x3.Idx → EReal)
    (hpt : ∀ t : Fin cfg0.N, t.val % 8 = 7 → ∀ (r : Fin 512) (k : Fin 3),
      (outsAt0 m c t.val t.isLt).1 (ix3 0 r k) = G (ix3 (batchAt t) (rowAt t r) k))
    (t : Fin cfg0.N) (h7 : t.val % 8 = 7) (j : S1x512x3.Idx) :
    (outsAt0 m c t.val t.isLt).1 j = G (((cfg0.win 2).blk t).view.emb j) := by
  obtain ⟨r, k, rfl⟩ : ∃ (r : Fin 512) (k : Fin 3), j = ix3 (0 : Fin 1) r k :=
    ⟨j 1, j 2, (eq_ix3 j).trans (congrArg (fun z : Fin 1 => ix3 z (j 1 : Fin 512) (j 2 : Fin 3)) (Subsingleton.elim _ _))⟩
  rw [hpt t h7 r k, out_emb]

/-- What a point that writes back writes is its block of G. -/
theorem flushed_out (c : Dev nD) (G : S2x4096x3.Idx → EReal)
    (hpt : ∀ t : Fin cfg0.N, t.val % 8 = 7 → ∀ (r : Fin 512) (k : Fin 3),
      (outsAt0 m c t.val t.isLt).1 (ix3 0 r k) = G (ix3 (batchAt t) (rowAt t r) k))
    (t : Fin cfg0.N) (hf : (cfg0.win 2).flush t = true) :
    (dats m qs 0 c).flushed 2 t = ((cfg0.win 2).blk t).view.read (Elt Ideal) G := by
  have h7 : t.val % 8 = 7 := (flush0_2 t).mp hf
  show (cfg0.win 2).cut (grid0.coords t) ((dats m qs 0 c).after 2 t) = _
  rw [after0_2]
  funext j
  exact out_blk_apply m c G hpt t h7 j

/-- An index of the output array is in point t's block iff each coordinate is in the block's range on its axis. -/
theorem mem_out_blk (t : Fin cfg0.N) (i : S2x4096x3.Idx) :
    i ∈ ((cfg0.win 2).blk t).view.set ↔ ∀ a : Fin 3, win0_2.index t a * S1x512x3.size a ≤ (i a).val ∧ (i a).val < win0_2.index t a * S1x512x3.size a + S1x512x3.size a := by
  show i ∈ ((View.whole main_v2).slice (win0_2.rect t)).set ↔ _
  rw [View.set_slice_whole, Rect.mem_set_unit]
  exact Iff.rfl

/-- Every entry (b, a, k) of the output is in the block written back at the point 64 b + 8 (a / 512) + 7. -/
theorem out_cover (i : S2x4096x3.Idx) :
    ∃ t : Fin cfg0.N, (cfg0.win 2).flush t = true ∧ i ∈ ((cfg0.win 2).blk t).view.set := by
  have hi0 : (i 0).val < 2 := (i 0).isLt
  have hi1 : (i 1).val < 4096 := (i 1).isLt
  have hi2 : (i 2).val < 3 := (i 2).isLt
  have hN : cfg0.N = 128 := N_0
  let t : Fin cfg0.N := ⟨64 * (i 0).val + 8 * ((i 1).val / 512) + 7, by rw [hN]; omega⟩
  have ht : t.val = 64 * (i 0).val + 8 * ((i 1).val / 512) + 7 := rfl
  obtain ⟨-, -, -, -, -, -, e0, e1, e2⟩ := idx_facts t
  refine ⟨t, (flush0_2 t).mpr (by omega), ?_⟩
  rw [mem_out_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 3 ≤ (i 2).val ∧ (i 2).val < win0_2.index t (2 : Fin 3) * 3 + 3; omega

/-- The output array after the run is G, when each point that copies out leaves its block of G. -/
theorem out_final (c : Dev nD) (G : S2x4096x3.Idx → EReal)
    (hpt : ∀ t : Fin cfg0.N, t.val % 8 = 7 → ∀ (r : Fin 512) (k : Fin 3),
      (outsAt0 m c t.val t.isLt).1 (ix3 0 r k) = G (ix3 (batchAt t) (rowAt t r) k)) :
    (dats m qs 0 c).arrAt 2 cfg0.N = G :=
  (dats m qs 0 c).arrAt_eq_of_cover 2 G (flushed_out m qs c G hpt) out_cover

end Cert.KernelIdeal.Val

end
-- ==== Proof.Val.Split.lean ====
/-
  The sum over all 4096 partners, tile by tile: eight tiles of 512 partners each.
-/
import proofs.«171273_j13151189860959_1_alg».proof.Proof.Spec
import Mathlib.Algebra.BigOperators.Fin
import Mathlib.Logic.Equiv.Fin.Basic

noncomputable section

namespace Cert.PF

open Idealize.ShloMosaic Idealize.ShloMosaic.ValueIdx

/-- Partner `l` of tile `s` (any natural `s`; tiles past the eighth wrap around, and are never summed). -/
def partner (s : ℕ) (l : Fin 512) : Fin 4096 := ⟨(512 * s + l.val) % 4096, Nat.mod_lt _ (by norm_num)⟩

/-- Tile `s`'s contribution to component `k` of the force on row `a` of batch `b`. -/
def tile (q : SQ.Idx → EReal) (b : Fin 2) (a : Fin 4096) (k : Fin 3) (s : ℕ) : EReal :=
  ∑ l : Fin 512, term (row q b a) (row q b (partner s l)) k

/-- The eight tiles' contributions add up to the force. -/
theorem sum_tiles (q : SQ.Idx → EReal) (b : Fin 2) (a : Fin 4096) (k : Fin 3) :
    ∑ s ∈ Finset.range 8, tile q b a k s = force q (ix3 b a k) := by
  rw [force_apply]
  rw [← Fin.sum_univ_eq_sum_range (fun s => tile q b a k s) 8]
  unfold tile
  rw [← Finset.sum_product' (Finset.univ : Finset (Fin 8)) (Finset.univ : Finset (Fin 512))
    (fun s l => term (row q b a) (row q b (partner s.val l)) k)]
  rw [Finset.univ_product_univ]
  refine (Fintype.sum_equiv (finProdFinEquiv (m := 8) (n := 512)) _ (fun j : Fin (8 * 512) => term (row q b a) (row q b ⟨j.val, j.isLt⟩) k) ?_).trans ?_
  · rintro ⟨s, l⟩
    have hs := s.isLt; have hl := l.isLt
    refine congrArg (fun j => term (row q b a) (row q b j) k) (Fin.ext ?_)
    show (512 * s.val + l.val) % 4096 = (finProdFinEquiv (s, l)).val
    rw [finProdFinEquiv_apply_val, Nat.mod_eq_of_lt (by omega)]; dsimp only; omega
  · rfl

end Cert.PF

end
-- ==== Proof.Val.Acc.lean ====
/-
  The accumulator, point by point. After the point with partner tile `j` of row tile `i` and batch `b`, entry
  `(r, k)` of the accumulator is the sum of the tiles `0 … j`' contributions to component `k` of the force on row
  `512 i + r`: the first tile starts from zeros, every later tile adds to what the point before left, and the
  batch and row tile do not change while `j` runs. After the last tile the output's buffer holds the accumulator,
  which by then is the whole force.
-/
import proofs.«171273_j13151189860959_1_alg».proof.Proof.KI.Pieces
import proofs.«171273_j13151189860959_1_alg».proof.Proof.KI.Main
import proofs.«171273_j13151189860959_1_alg».proof.Proof.PayloadAt
import proofs.«171273_j13151189860959_1_alg».proof.Proof.Val.Blocks
import proofs.«171273_j13151189860959_1_alg».proof.Proof.Val.Split

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx Cert.KernelIdeal.Hand Cert.KernelIdeal.PayVal

variable (m : (ℓ : Loc nD τ sig) → Buf (Elt Ideal) ℓ)

/-- The positions as the call finds them. -/
abbrev qarr (c : Dev nD) : Cert.PF.SQ.Idx → EReal := V m c main_arg0

theorem partner_eq (t : Fin cfg0.N) (l : Fin 512) : Cert.PF.partner (t.val % 8) l = partnerAt t l :=
  Fin.ext (Nat.mod_eq_of_lt (by have := l.isLt; show 512 * (t.val % 8) + l.val < 4096; omega))

/-- The body's update of an accumulator `acc` at point `t` adds the point's tile. -/
theorem update_at (c : Dev nD) (t : Fin cfg0.N) (acc : Vec Ideal S512x3 .f32) (r : Fin 512) (k : Fin 3) :
    k0_pay1 (k0_pay6 (iblk m c 0 t) (iblk m c 1 t)) (k0_pay7 (iblk m c 0 t) (iblk m c 1 t)) (k0_pay8 (iblk m c 0 t) (iblk m c 1 t)) (k0_pay9 (iblk m c 0 t) (iblk m c 1 t)) (k0_pay10 (iblk m c 0 t) (iblk m c 1 t)) (Scalar.ofBits .f32 0x41C00000#32) acc (ix2 r k)
      = acc (ix2 r k) + Cert.PF.tile (qarr m c) (batchAt t) (rowAt t r) k (t.val % 8) := by
  refine (pay1_apply (iblk m c 0 t) (iblk m c 1 t) acc r k).trans ?_
  refine congrArg (acc (ix2 r k) + ·) ?_
  unfold Cert.PF.tile
  refine Finset.sum_congr rfl fun l _ => ?_
  rw [partner_eq]
  have e0 : (fun k' => (iblk m c 0 t) (ix3 0 r k')) = Cert.PF.row (qarr m c) (batchAt t) (rowAt t r) :=
    funext fun k' => iblk0_apply m c t r k'
  have e1 : (fun k' => (iblk m c 1 t) (ix3 0 l k')) = Cert.PF.row (qarr m c) (batchAt t) (partnerAt t l) :=
    funext fun k' => iblk1_apply m c t l k'
  rw [e0, e1]

/-- THE ACCUMULATION: the accumulator after point `n`. -/
theorem acc_at (c : Dev nD) : ∀ (n : ℕ) (hn : n < cfg0.N) (r : Fin 512) (k : Fin 3),
    (outsAt0 m c n hn).2 (ix2 r k)
      = ∑ s ∈ Finset.range (n % 8 + 1), Cert.PF.tile (qarr m c) (batchAt ⟨n, hn⟩) (rowAt ⟨n, hn⟩ r) k s := by
  intro n
  induction n using Nat.strong_induction_on with
  | _ n ih =>
    intro hn r k
    have hN : n < 128 := lt_of_lt_of_eq hn (show cfg0.N = 128 from N_0)
    by_cases h0 : n % 8 = 0
    · have h1 : ¬n % 8 = 7 := by omega
      rw [outsAt0_A m c ⟨n, hn⟩ h0 h1]
      dsimp only
      rw [sout0_A_eq]
      refine (update_at m c ⟨n, hn⟩ (k0_pay3 (F := Ideal)) r k).trans ?_
      rw [pay3_apply, zero_add]
      show Cert.PF.tile (qarr m c) (batchAt ⟨n, hn⟩) (rowAt ⟨n, hn⟩ r) k (n % 8) = _
      rw [h0, Finset.sum_range_one]
    · have hp : n - 1 < n := by omega
      have hn' : n - 1 < cfg0.N := lt_trans hp hn
      have eb : batchAt ⟨n - 1, hn'⟩ = batchAt ⟨n, hn⟩ := Fin.ext (by show (n - 1) / 64 = n / 64; omega)
      have er : rowAt ⟨n - 1, hn'⟩ r = rowAt ⟨n, hn⟩ r :=
        Fin.ext (by show 512 * (((n - 1) / 8) % 8) + r.val = 512 * ((n / 8) % 8) + r.val; omega)
      have es : (n - 1) % 8 + 1 = n % 8 := by omega
      have hprev := ih (n - 1) hp hn' r k
      rw [eb, er, es] at hprev
      by_cases h1 : n % 8 = 7
      · rw [outsAt0_C m c ⟨n, hn⟩ h0 h1]
        dsimp only
        rw [sout0_C_eq]
        refine (update_at m c ⟨n, hn⟩ _ r k).trans ?_
        show (outsAt0 m c (n - 1) _).2 (ix2 r k) + Cert.PF.tile (qarr m c) (batchAt ⟨n, hn⟩) (rowAt ⟨n, hn⟩ r) k (n % 8) = _
        rw [hprev, Finset.sum_range_succ]
      · rw [outsAt0_B m c ⟨n, hn⟩ h0 h1]
        dsimp only
        rw [sout0_B_eq]
        refine (update_at m c ⟨n, hn⟩ _ r k).trans ?_
        show (outsAt0 m c (n - 1) _).2 (ix2 r k) + Cert.PF.tile (qarr m c) (batchAt ⟨n, hn⟩) (rowAt ⟨n, hn⟩ r) k (n % 8) = _
        rw [hprev, Finset.sum_range_succ]

/-- After a last tile the output's buffer holds the accumulator, re-laid. -/
theorem out_eq_acc (c : Dev nD) (t : Fin cfg0.N) (h1 : t.val % 8 = 7) :
    (outsAt0 m c t.val t.isLt).1 = k0_pay2 (outsAt0 m c t.val t.isLt).2 := by
  have h0 : ¬t.val % 8 = 0 := by omega
  rw [outsAt0_C m c t h0 h1]
  dsimp only
  rw [out0_C_eq, sout0_C_eq]

/-- So it holds the force on the block's rows. -/
theorem out_at (c : Dev nD) (t : Fin cfg0.N) (h1 : t.val % 8 = 7) (r : Fin 512) (k : Fin 3) :
    (outsAt0 m c t.val t.isLt).1 (ix3 0 r k) = Cert.PF.force (qarr m c) (ix3 (batchAt t) (rowAt t r) k) := by
  rw [out_eq_acc m c t h1, pay2_apply, acc_at m c t.val t.isLt r k, h1]
  exact Cert.PF.sum_tiles (qarr m c) (batchAt t) (rowAt t r) k

/-- THE OUTPUT ARRAY after the call is the force array of the positions. -/
theorem out_array (c : Dev nD) : (dats m qOf 0 c).arrAt 2 cfg0.N = Cert.PF.force (qarr m c) :=
  out_final m qOf c (Cert.PF.force (qarr m c)) (fun t h r k => out_at m c t h r k)

end Cert.KernelIdeal.Val

end
-- ==== Proof.Val.HostRes.lean ====
/-
  The momenta over the broadcast masses: what the second host operation before the call leaves in its result
  array, which the call then finds (and leaves) there.
-/
import proofs.«171273_j13151189860959_1_alg».proof.Proof.KI.Main
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V_main_v1 (c : Dev nD) :
    V m c main_v1 = Host.divf (m ((c : Thread nD τ).loc main_arg1))
      (broadcastInDim S2x4096x3 ![0, 1, 2] Facts₀.bcast_S2x4096x1_S2x4096x3_0_1_2 (m ((c : Thread nD τ).loc main_arg2))) := by
  dsimp only [V, V0, hostOps0]
  after_results

end Cert.KernelIdeal.Hand

end
-- ==== Proof.Val.Kernel.lean ====
/-
  The idealized pair-force program's run with its two results named: the quotient of the momenta by the broadcast
  masses, computed on the host before the call and left alone by it, and the force array of the positions, which
  the call writes block by block.
-/
import proofs.«171273_j13151189860959_1_alg».proof.Proof.Val.Acc
import proofs.«171273_j13151189860959_1_alg».proof.Proof.Val.HostRes

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Idealize.ShloMosaic.ValueIdx Cert.KernelIdeal.Hand Cert.KernelIdeal.PayVal

variable (m : (ℓ : Loc nD τ sig) → Buf (Elt Ideal) ℓ)

variable (ρ : Dev nD → PrngReg)

/-- The run, with both results named and the arguments unchanged. -/
theorem run_values : θ_run (defs (F := Ideal)) (onTc (τ := τ) (main (F := Ideal))) ⟨m, fun _ => 0, ρ⟩ (fun r => ∀ c : Dev nD,
      r.2.mem ((c.tc : Thread nD τ).loc main_v1) = V m c main_v1
      ∧ r.2.mem ((c.tc : Thread nD τ).loc main_v2) = Cert.PF.force (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v1 (Pipeline.mem_restRefs_of main_v1 (by decide) (by decide)),
      ((h c).1 2).trans ((out_array m c).trans (congrArg Cert.PF.force (V_main_arg0 m c))),
      ((h c).1 0).trans (((dats m qOf 0 c).arrAt_in 0 rfl _).trans ((A_eq m qOf c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main (F := Ideal) m ρ)

end Cert.KernelIdeal.Val

end
-- ==== Proof.RefForce.lean ====
/-
  The reference program's result, read element by element, is the pair force of the specification.

  Each stage of the reference is read at explicit coordinates: the displacement, its squared length, the mask, the
  masked inverse square, the scalar coefficient, one partner's term, and last the sum over partners.
-/
import proofs.«171273_j13151189860959_1_alg».proof.Proof.Gen.ReferenceIdeal.Read
import proofs.«171273_j13151189860959_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The position array's type at the ideal instance. -/
abbrev Q : Type := (⟨S2x4096x3, .f32⟩ : BufTy).Contents (Elt Ideal)

/-! ## The composed index maps, by coordinates -/

theorem idx_left (b : Fin 2) (a j : Fin 4096) (k : Fin 3) :
    idx_main_v2 (idx_main_v4 (ix4 b a j k)) = ix3 b a k := by
  funext d; match d with | ⟨0, _⟩ => rfl | ⟨1, _⟩ => rfl | ⟨2, _⟩ => rfl

theorem idx_right (b : Fin 2) (a j : Fin 4096) (k : Fin 3) :
    idx_main_v3 (idx_main_v5 (ix4 b a j k)) = ix3 b j k := by
  funext d; match d with | ⟨0, _⟩ => rfl | ⟨1, _⟩ => rfl | ⟨2, _⟩ => rfl

theorem idx_sq (b : Fin 2) (a j : Fin 4096) (k : Fin 3) :
    idx_main_v8 (ix3 b a j) k = ix4 b a j k := by
  funext d; match d with | ⟨0, _⟩ => rfl | ⟨1, _⟩ => rfl | ⟨2, _⟩ => rfl | ⟨3, _⟩ => rfl

theorem idx_coeff (b : Fin 2) (a j : Fin 4096) (k : Fin 3) :
    idx_main_v27 (idx_main_v28 (ix4 b a j k)) = ix3 b a j := by
  funext d; match d with | ⟨0, _⟩ => rfl | ⟨1, _⟩ => rfl | ⟨2, _⟩ => rfl

theorem idx_sum (b : Fin 2) (a j : Fin 4096) (k : Fin 3) :
    idx_main_v30 (ix3 b a k) j = ix4 b a j k := by
  funext d; match d with | ⟨0, _⟩ => rfl | ⟨1, _⟩ => rfl | ⟨2, _⟩ => rfl | ⟨3, _⟩ => rfl

/-! ## The stages at coordinates -/

/-- The displacement. -/
theorem v6_at (q : Q) (b : Fin 2) (a j : Fin 4096) (k : Fin 3) :
    val_main_v6 (F := Ideal) q (ix4 b a j k) = q (ix3 b a k) - q (ix3 b j k) := by
  rw [val_main_v6_apply, val_main_v4_apply, val_main_v2_apply, val_main_v5_apply, val_main_v3_apply,
    idx_left, idx_right, Ideal.subf_def]

/-- The squared distance. -/
theorem v8_at (q : Q) (b : Fin 2) (a j : Fin 4096) :
    val_main_v8 (F := Ideal) q (ix3 b a j) = Cert.PF.r2 (Cert.PF.row q b a) (Cert.PF.row q b j) := by
  rw [val_main_v8_apply, val_main_cst_apply, Ideal.ofBits_def, Ideal.ofBits_zero_f32, zero_add, Fin.sum_univ_three]
  simp only [idx_sq, val_main_v7_apply, v6_at, Ideal.mulf_def]
  rfl

/-- The broadcast zero the squared distance is compared with. -/
theorem v9_at (i : S2x4096x4096.Idx) : val_main_v9 (F := Ideal) i = Cert.PF.zero := by
  rw [val_main_v9_apply, val_main_cst_0_apply, Ideal.ofBits_def]

/-- The mask: the squared distance is positive. -/
theorem v10_at (q : Q) (b : Fin 2) (a j : Fin 4096) :
    val_main_v10 (F := Ideal) q (ix3 b a j)
      = Ideal.cmp .ogt (Cert.PF.r2 (Cert.PF.row q b a) (Cert.PF.row q b j)) Cert.PF.zero := by
  rw [val_main_v10_apply, v8_at, v9_at, Ideal.cmpf_def]

/-- The broadcast one of the first select. -/
theorem call0_at (i : S2x4096x4096.Idx) : val_main_call0_v1 (F := Ideal) i = Cert.PF.one := by
  rw [val_main_call0_v1_apply, val_main_call0_v0_apply, val_main_cst_1_apply, Ideal.ofBits_def]

/-- The broadcast zero of the second select. -/
theorem call1_at (i : S2x4096x4096.Idx) : val_main_call1_v1 (F := Ideal) i = Cert.PF.zero := by
  rw [val_main_call1_v1_apply, val_main_call1_v0_apply, val_main_cst_3_apply, Ideal.ofBits_def]

theorem v12_at (i : S2x4096x4096.Idx) : val_main_v12 (F := Ideal) i = Cert.PF.one := by
  rw [val_main_v12_apply, val_main_cst_2_apply, Ideal.ofBits_def]

theorem v15_at (i : S2x4096x4096.Idx) : val_main_v15 (F := Ideal) i = Cert.PF.one := by
  rw [val_main_v15_apply, val_main_cst_4_apply, Ideal.ofBits_def]

theorem v19_at (i : S2x4096x4096.Idx) : val_main_v19 (F := Ideal) i = Cert.PF.c24 := by
  rw [val_main_v19_apply, val_main_cst_5_apply, Ideal.ofBits_def]

theorem v22_at (i : S2x4096x4096.Idx) : val_main_v22 (F := Ideal) i = Cert.PF.two := by
  rw [val_main_v22_apply, val_main_cst_6_apply, Ideal.ofBits_def]

theorem v24_at (i : S2x4096x4096.Idx) : val_main_v24 (F := Ideal) i = Cert.PF.one := by
  rw [val_main_v24_apply, val_main_cst_7_apply, Ideal.ofBits_def]

/-- The masked inverse square distance. -/
theorem v14_at (q : Q) (b : Fin 2) (a j : Fin 4096) :
    val_main_v14 (F := Ideal) q (ix3 b a j) = Cert.PF.inv (Cert.PF.row q b a) (Cert.PF.row q b j) := by
  rw [val_main_v14_apply, val_main_v13_apply, val_main_v11_apply, v10_at, v8_at, v12_at, call0_at, call1_at,
    Ideal.hostDivf_def]
  rfl

/-- The cube of the scaled inverse square. -/
theorem v18_at (q : Q) (b : Fin 2) (a j : Fin 4096) :
    val_main_v18 (F := Ideal) q (ix3 b a j) = Cert.PF.s6 (Cert.PF.row q b a) (Cert.PF.row q b j) := by
  rw [val_main_v18_apply, val_main_v17_apply, val_main_v16_apply, v15_at, v14_at]
  simp only [Ideal.mulf_def]
  rfl

/-- The scalar coefficient. -/
theorem v26_at (q : Q) (b : Fin 2) (a j : Fin 4096) :
    val_main_v26 (F := Ideal) q (ix3 b a j) = Cert.PF.coeff (Cert.PF.row q b a) (Cert.PF.row q b j) := by
  rw [val_main_v26_apply, val_main_v21_apply, val_main_v20_apply, val_main_v25_apply, val_main_v23_apply,
    v19_at, v14_at, v18_at, v22_at, v24_at]
  simp only [Ideal.mulf_def, Ideal.subf_def]
  rfl

/-- One partner's term. -/
theorem v29_at (q : Q) (b : Fin 2) (a j : Fin 4096) (k : Fin 3) :
    val_main_v29 (F := Ideal) q (ix4 b a j k)
      = Cert.PF.term (Cert.PF.row q b a) (Cert.PF.row q b j) k := by
  rw [val_main_v29_apply, val_main_v28_apply, val_main_v27_apply, idx_coeff, v26_at, v6_at, Ideal.mulf_def]
  rfl

/-- The sum over partners. -/
theorem v30_at (q : Q) (b : Fin 2) (a : Fin 4096) (k : Fin 3) :
    val_main_v30 (F := Ideal) q (ix3 b a k)
      = ∑ j : Fin 4096, Cert.PF.term (Cert.PF.row q b a) (Cert.PF.row q b j) k := by
  rw [val_main_v30_apply, val_main_cst_8_apply, Ideal.ofBits_def, Ideal.ofBits_zero_f32, zero_add]
  simp only [idx_sum, v29_at]

/-- The reference program computes the pair force. -/
theorem force_eq (q : (⟨Cert.ReferenceIdeal.S2x4096x3, .f32⟩ : BufTy).Contents (Elt Ideal)) :
    Cert.ReferenceIdeal.Read.val_main_v30 (F := Ideal) q = Cert.PF.force q := by
  funext i
  obtain ⟨b, a, k, rfl⟩ : ∃ (b : Fin 2) (a : Fin 4096) (k : Fin 3), i = ix3 b a k :=
    ⟨i 0, i 1, i 2, eq_ix3 (n0 := 2) (n1 := 4096) (n2 := 3) i⟩
  rw [v30_at, Cert.PF.force_apply]

end Cert.ReferenceIdeal.RefValue

end
-- ==== Proof.Claims.lean ====
/-
  The five claims. The word-level program and its idealization run to the end leaving their arguments unchanged
  (one frame proof, read at either float instance); the reference's frame is its run with the results
  dropped; nothing was rewritten by the idealization; and at the ideal instance both programs end with the same two
  arrays: the momenta over the broadcast masses — the same two host operations in both —, and the pair force,
  which the kernel accumulates tile by tile and the reference sums in one piece over all partners.
-/
import proofs.«171273_j13151189860959_1_alg».proof.Defs
import proofs.«171273_j13151189860959_1_alg».proof.Proof.K.Main
import proofs.«171273_j13151189860959_1_alg».proof.Proof.Val.Kernel
import proofs.«171273_j13151189860959_1_alg».proof.Proof.RefForce
import proofs.«171273_j13151189860959_1_alg».proof.Proof.Gen.ReferenceIdeal.Run
import proofs.«171273_j13151189860959_1_alg».proof.Proof.Gen.Kernel
import proofs.«171273_j13151189860959_1_alg».proof.Proof.Gen.KernelIdeal
import proofs.«171273_j13151189860959_1_alg».proof.Proof.Gen.ReferenceIdeal
import proofs.«171273_j13151189860959_1_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, Cert.KernelIdeal.Val.run_values m ρ, ?_⟩
  refine (θ_run Cert.ReferenceIdeal.defs _ _).mono (fun _ h c => ⟨?_, ?_, (h c).2.2⟩)
    (Cert.ReferenceIdeal.Value.run (F := Ideal) m' ρ')
  · rw [(h c).1, (hagree c).2.1, (hagree c).2.2.1]; exact (Cert.KernelIdeal.Hand.V_main_v1 m c).symm
  · rw [(h c).2.1, Cert.ReferenceIdeal.Read.val_main_v30_eq, Cert.ReferenceIdeal.RefValue.force_eq, (hagree c).1]

end Cert.Proof.Claims

end
-- ==== Proof.lean ====
/-
  The certificate of the all-pairs force kernel against its reference, assembled: the three frames, the (empty)
  idealization ledger, and the equality of the two programs' results on the extended reals (Proof/Claims.lean), behind
  the witnesses of the side conditions the printed programs state.
-/
import proofs.«171273_j13151189860959_1_alg».proof.Defs
import proofs.«171273_j13151189860959_1_alg».proof.Proof.Claims
import proofs.«171273_j13151189860959_1_alg».proof.Proof.Gen.Kernel
import proofs.«171273_j13151189860959_1_alg».proof.Proof.Gen.KernelIdeal
import proofs.«171273_j13151189860959_1_alg».proof.Proof.Gen.ReferenceIdeal
import proofs.«171273_j13151189860959_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
